-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S64x64 .f32) (main_arg3 : FVec F S64 .f32) (main_arg4 : FVec F S64x40 .f32) (main_arg5 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S10000x64 : Shape := ⟨2, ![10000, 64]⟩
abbrev S1350000x64 : Shape := ⟨2, ![1350000, 64]⟩
abbrev S1x64 : Shape := ⟨2, ![1, 64]⟩
abbrev S100000x40 : Shape := ⟨2, ![100000, 40]⟩
abbrev S10000x40 : Shape := ⟨2, ![10000, 40]⟩
abbrev S1350000x40 : Shape := ⟨2, ![1350000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 88
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1250000, .i32⟩
  | .hbm, ⟨8, _⟩ => ⟨S1250000, .i32⟩
  | .hbm, ⟨9, _⟩ => ⟨S1350000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S100000, .f32⟩
  | .hbm, ⟨17, _⟩ => ⟨S1350000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1350000, .i32⟩
  | .hbm, ⟨29, _⟩ => ⟨S1350000, .i1⟩
  | .hbm, ⟨30, _⟩ => ⟨S_, .i32⟩
  | .hbm, ⟨31, _⟩ => ⟨S1350000, .i32⟩
  | .hbm, ⟨32, _⟩ => ⟨S1350000, .i32⟩
  | .hbm, ⟨33, _⟩ => ⟨S1350000, .i32⟩
  | .hbm, ⟨34, _⟩ => ⟨S1350000x1, .i32⟩
  | .hbm, ⟨35, _⟩ => ⟨S1350000, .f32⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000, .f32⟩
  | .hbm, ⟨45, _⟩ => ⟨S1350000, .f32⟩
  | .hbm, ⟨46, _⟩ => ⟨S100000x64, .bf16⟩
  | .hbm, ⟨47, _⟩ => ⟨S64x64, .bf16⟩
  | .hbm, ⟨48, _⟩ => ⟨S100000x64, .bf16⟩
  | .hbm, ⟨49, _⟩ => ⟨S100000x64, .f32⟩
  | .hbm, ⟨50, _⟩ => ⟨S_, .i32⟩
  | .hbm, ⟨51, _⟩ => ⟨S1350000, .i32⟩
  | .hbm, ⟨52, _⟩ => ⟨S1350000, .i1⟩
  | .hbm, ⟨53, _⟩ => ⟨S_, .i32⟩
  | .hbm, ⟨54, _⟩ => ⟨S1350000, .i32⟩
  | .hbm, ⟨55, _⟩ => ⟨S1350000, .i32⟩
  | .hbm, ⟨56, _⟩ => ⟨S1350000, .i32⟩
  | .hbm, ⟨57, _⟩ => ⟨S1350000x1, .i32⟩
  | .hbm, ⟨58, _⟩ => ⟨S1350000x64, .f32⟩
  | .hbm, ⟨59, _⟩ => ⟨S1350000x1, .f32⟩
  | .hbm, ⟨60, _⟩ => ⟨S1350000x64, .f32⟩
  | .hbm, ⟨61, _⟩ => ⟨S1350000x64, .f32⟩
  | .hbm, ⟨62, _⟩ => ⟨S_, .f32⟩
  | .hbm, ⟨63, _⟩ => ⟨S100000x64, .f32⟩
  | .hbm, ⟨64, _⟩ => ⟨S1350000x1, .i32⟩
  | .hbm, ⟨65, _⟩ => ⟨S100000x64, .f32⟩
  | .hbm, ⟨66, _⟩ => ⟨S1x64, .f32⟩
  | .hbm, ⟨67, _⟩ => ⟨S64x40, .bf16⟩
  | .hbm, ⟨68, _⟩ => ⟨S100000x40, .bf16⟩
  | .hbm, ⟨69, _⟩ => ⟨S100000x40, .f32⟩
  | .hbm, ⟨70, _⟩ => ⟨S_, .i32⟩
  | .hbm, ⟨71, _⟩ => ⟨S1350000, .i32⟩
  | .hbm, ⟨72, _⟩ => ⟨S1350000, .i1⟩
  | .hbm, ⟨73, _⟩ => ⟨S_, .i32⟩
  | .hbm, ⟨74, _⟩ => ⟨S1350000, .i32⟩
  | .hbm, ⟨75, _⟩ => ⟨S1350000, .i32⟩
  | .hbm, ⟨76, _⟩ => ⟨S1350000, .i32⟩
  | .hbm, ⟨77, _⟩ => ⟨S1350000x1, .i32⟩
  | .hbm, ⟨78, _⟩ => ⟨S1350000x40, .f32⟩
  | .hbm, ⟨79, _⟩ => ⟨S1350000x1, .f32⟩
  | .hbm, ⟨80, _⟩ => ⟨S1350000x40, .f32⟩
  | .hbm, ⟨81, _⟩ => ⟨S1350000x40, .f32⟩
  | .hbm, ⟨82, _⟩ => ⟨S_, .f32⟩
  | .hbm, ⟨83, _⟩ => ⟨S100000x40, .f32⟩
  | .hbm, ⟨84, _⟩ => ⟨S1350000x1, .i32⟩
  | .hbm, ⟨85, _⟩ => ⟨S100000x40, .f32⟩
  | .hbm, ⟨86, _⟩ => ⟨S1x40, .f32⟩
  | .hbm, ⟨87, _⟩ => ⟨S100000x40, .f32⟩
  | .local _ .vmem, ⟨0, _⟩ => ⟨S10000x64, .bf16⟩
  | .local _ .vmem, ⟨1, _⟩ => ⟨S10000x64, .bf16⟩
  | .local _ .vmem, ⟨2, _⟩ => ⟨S64x64, .bf16⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x40, .bf16⟩
  | .local _ .vmem, ⟨9, _⟩ => ⟨S10000x40, .bf16⟩
  | .local _ .vmem, ⟨10, _⟩ => ⟨S10000x40, .bf16⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S10000x64_S10000x64_0_0 : (Rect.unit (s := S10000x64) ![0, 0] S10000x64.size inb_S10000x64_S10000x64_0_0).PackedRows (EltTy.packing .bf16)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S10000x40_S10000x40_0_0 : ∀ a, (![0, 0] : Fin 2 → Nat) a + S10000x40.size a ≤ S10000x40.size a
  h_S10000x40 : 0 < S10000x40.numel
  packedbf16_S10000x40_S10000x40_0_0 : (Rect.unit (s := S10000x40) ![0, 0] S10000x40.size inb_S10000x40_S10000x40_0_0).PackedRows (EltTy.packing .bf16)
  bcast_S1350000x1_S1350000x40_0_1 : S1350000x1.BroadcastsInDim S1350000x40 (![0, 1] : Fin 2 → Fin S1350000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x64_S64x64_S10000x64_1_0_0_1_n_n_wf : DotDims.WF S10000x64 S64x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S10000x64_S64x40_S10000x40_1_0_0_1_n_n_wf : DotDims.WF S10000x64 S64x40 S10000x40 [1] [0] [0] [1] [] []
  gather_S100000x40_S1350000x1_S1350000x40_1_0_n_n_0_1_140_wf : GatherDims.WF S100000x40 S1350000x1 S1350000x40 [1] [0] [] [0] [] 1 ![1, 40]
  scatter_S100000x40_S1350000x1_S1350000x40_1_0_0_1_wf : ScatterDims.WF S100000x40 S1350000x1 S1350000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .bf16 = 32 ∨ (Rect.block (s := S100000x64) S10000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .bf16 = 32 ∨ (Rect.block (s := S64x40) S64x40.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .bf16 = 32 ∨ (Rect.block (s := S100000x40) S10000x40.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1350000x1_S1350000x40_1_0_n_n_0_1_140 : GatherDims S100000x40 S1350000x1 S1350000x40 where
  offsetDims := [1]
  collapsedSliceDims := [0]
  operandBatchingDims := []
  startIndicesBatchingDims := []
  startIndexMap := [0]
  indexVectorDim := 1
  sliceSizes := ![1, 40]
  wf := gather_S100000x40_S1350000x1_S1350000x40_1_0_n_n_0_1_140_wf
def scatter_S100000x40_S1350000x1_S1350000x40_1_0_0_1 : ScatterDims S100000x40 S1350000x1 S1350000x40 where
  updateWindowDims := [1]
  insertedWindowDims := [0]
  scatterDimsToOperandDims := [0]
  indexVectorDim := 1
  wf := scatter_S100000x40_S1350000x1_S1350000x40_1_0_0_1_wf

abbrev win0_0 : Pipeline.Window sig grid0 :=
  Pipeline.Window.ofSpec (Memref.whole main_v30) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S1x64 : Shape := ⟨2, ![1, 64]⟩
abbrev S100000x40 : Shape := ⟨2, ![100000, 40]⟩
abbrev S1350000x40 : Shape := ⟨2, ![1350000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1250000, .i32⟩
  | .hbm, ⟨8, _⟩ => ⟨S1250000, .i32⟩
  | .hbm, ⟨9, _⟩ => ⟨S1350000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S100000, .f32⟩
  | .hbm, ⟨17, _⟩ => ⟨S1350000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1350000, .i32⟩
  | .hbm, ⟨29, _⟩ => ⟨S1350000, .i1⟩
  | .hbm, ⟨30, _⟩ => ⟨S_, .i32⟩
  | .hbm, ⟨31, _⟩ => ⟨S1350000, .i32⟩
  | .hbm, ⟨32, _⟩ => ⟨S1350000, .i32⟩
  | .hbm, ⟨33, _⟩ => ⟨S1350000, .i32⟩
  | .hbm, ⟨34, _⟩ => ⟨S1350000x1, .i32⟩
  | .hbm, ⟨35, _⟩ => ⟨S1350000, .f32⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000, .f32⟩
  | .hbm, ⟨45, _⟩ => ⟨S1350000, .f32⟩
  | .hbm, ⟨46, _⟩ => ⟨S100000x64, .f32⟩
  | .hbm, ⟨47, _⟩ => ⟨S_, .i32⟩
  | .hbm, ⟨48, _⟩ => ⟨S1350000, .i32⟩
  | .hbm, ⟨49, _⟩ => ⟨S1350000, .i1⟩
  | .hbm, ⟨50, _⟩ => ⟨S_, .i32⟩
  | .hbm, ⟨51, _⟩ => ⟨S1350000, .i32⟩
  | .hbm, ⟨52, _⟩ => ⟨S1350000, .i32⟩
  | .hbm, ⟨53, _⟩ => ⟨S1350000, .i32⟩
  | .hbm, ⟨54, _⟩ => ⟨S1350000x1, .i32⟩
  | .hbm, ⟨55, _⟩ => ⟨S1350000x64, .f32⟩
  | .hbm, ⟨56, _⟩ => ⟨S1350000x1, .f32⟩
  | .hbm, ⟨57, _⟩ => ⟨S1350000x64, .f32⟩
  | .hbm, ⟨58, _⟩ => ⟨S1350000x64, .f32⟩
  | .hbm, ⟨59, _⟩ => ⟨S_, .f32⟩
  | .hbm, ⟨60, _⟩ => ⟨S100000x64, .f32⟩
  | .hbm, ⟨61, _⟩ => ⟨S1350000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .i32⟩
  | .hbm, ⟨71, _⟩ => ⟨S1350000, .i32⟩
  | .hbm, ⟨72, _⟩ => ⟨S1350000, .i1⟩
  | .hbm, ⟨73, _⟩ => ⟨S_, .i32⟩
  | .hbm, ⟨74, _⟩ => ⟨S1350000, .i32⟩
  | .hbm, ⟨75, _⟩ => ⟨S1350000, .i32⟩
  | .hbm, ⟨76, _⟩ => ⟨S1350000, .i32⟩
  | .hbm, ⟨77, _⟩ => ⟨S1350000x1, .i32⟩
  | .hbm, ⟨78, _⟩ => ⟨S1350000x40, .f32⟩
  | .hbm, ⟨79, _⟩ => ⟨S1350000x1, .f32⟩
  | .hbm, ⟨80, _⟩ => ⟨S1350000x40, .f32⟩
  | .hbm, ⟨81, _⟩ => ⟨S1350000x40, .f32⟩
  | .hbm, ⟨82, _⟩ => ⟨S_, .f32⟩
  | .hbm, ⟨83, _⟩ => ⟨S100000x40, .f32⟩
  | .hbm, ⟨84, _⟩ => ⟨S1350000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1350000x1_S1350000x40_0_1 : S1350000x1.BroadcastsInDim S1350000x40 (![0, 1] : Fin 2 → Fin S1350000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x64_S64x64_S100000x64_1_0_0_1_n_n_wf : DotDims.WF S100000x64 S64x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x40_S100000x40_1_0_0_1_n_n_wf : DotDims.WF S100000x64 S64x40 S100000x40 [1] [0] [0] [1] [] []
  gather_S100000x40_S1350000x1_S1350000x40_1_0_n_n_0_1_140_wf : GatherDims.WF S100000x40 S1350000x1 S1350000x40 [1] [0] [] [0] [] 1 ![1, 40]
  scatter_S100000x40_S1350000x1_S1350000x40_1_0_0_1_wf : ScatterDims.WF S100000x40 S1350000x1 S1350000x40 [1] [0] [0] 1

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1350000x1_S1350000x40_1_0_n_n_0_1_140 : GatherDims S100000x40 S1350000x1 S1350000x40 where
  offsetDims := [1]
  collapsedSliceDims := [0]
  operandBatchingDims := []
  startIndicesBatchingDims := []
  startIndexMap := [0]
  indexVectorDim := 1
  sliceSizes := ![1, 40]
  wf := gather_S100000x40_S1350000x1_S1350000x40_1_0_n_n_0_1_140_wf
def scatter_S100000x40_S1350000x1_S1350000x40_1_0_0_1 : ScatterDims S100000x40 S1350000x1 S1350000x40 where
  updateWindowDims := [1]
  insertedWindowDims := [0]
  scatterDimsToOperandDims := [0]
  indexVectorDim := 1
  wf := scatter_S100000x40_S1350000x1_S1350000x40_1_0_0_1_wf

class Facts : Prop extends Facts₀ where

variable [Facts]
-- ==== Proof.Spec.lean ====
/-
  The three dense stages of the two-layer graph convolution, each as ONE function of whole arrays over the extended reals,
  index by index. The kernel computes each of them block of 10000 rows by block; the reference computes each with one host
  operation chain over all 100000 rows. Both sides are proved equal to these.

  * `rowsTimes x w`       : the matrix product, entry (p, o) = ∑ k, x (p, k) · w (k, o).
  * `reluRowsTimes a b w` : the product of max (a + b, 0) with w, the bias row b added to every row of a first.
  * `logSoftmaxRows a b`  : with y = a + b (the bias row added to every row), entry (p, j) =
                              (y (p, j) − M p) − log (∑ j', exp (y (p, j') − M p)), M p the maximum of row p of y
                              (a fold of max from the word −∞, kept as the word so that neither side evaluates it).
-/
import proofs.«111087_j72662256714549_1_alg».proof.KernelIdeal
import Idealize.ShloMosaic.Lib.ValueIdx
import Idealize.ShloMosaic.PureOps.Ideal

noncomputable section

open scoped BigOperators
open Idealize.ShloMosaic Idealize.ShloMosaic.ValueIdx

namespace Cert.KernelIdeal.Spec

open Cert.KernelIdeal

/-- Entry (p, o) of the product of a [100000, 64] array with a [64, 64] array. -/
def rowsTimes (x : S100000x64.Idx → EReal) (w : S64x64.Idx → EReal) : S100000x64.Idx → EReal :=
  fun i => ∑ k : Fin 64, x (ix2 (i 0) k) * w (ix2 k (i 1))

/-- Entry (p, k) of max (a + b, 0): the bias row `b` (a [1, 64] array) added to every row of `a`, then the positive part;
    the zero is the f32 word 0. -/
def reluBias (a : S100000x64.Idx → EReal) (b : S1x64.Idx → EReal) : S100000x64.Idx → EReal :=
  fun i => max (a i + b (ix2 0 (i 1))) (Ideal.ofBits .f32 0x00000000#32)

/-- Entry (p, o) of the product of `reluBias a b` with a [64, 40] array. -/
def reluRowsTimes (a : S100000x64.Idx → EReal) (b : S1x64.Idx → EReal) (w : S64x40.Idx → EReal) : S100000x40.Idx → EReal :=
  fun i => ∑ k : Fin 64, reluBias a b (ix2 (i 0) k) * w (ix2 k (i 1))

/-- The bias row `b` (a [1, 40] array) added to every row of `a`. -/
def addRow (a : S100000x40.Idx → EReal) (b : S1x40.Idx → EReal) : S100000x40.Idx → EReal :=
  fun i => a i + b (ix2 0 (i 1))

/-- The maximum of row `p` of `y`: the fold of max over the row's 40 entries from the f32 word −∞. -/
def rowMax (y : S100000x40.Idx → EReal) (p : Fin 100000) : EReal :=
  (Finset.univ : Finset (Fin 40)).fold max (Ideal.ofBits .f32 0xFF800000#32) (fun j => y (ix2 p j))

/-- The sum over row `p` of exp (y − its row maximum). -/
def rowSumExp (y : S100000x40.Idx → EReal) (p : Fin 100000) : EReal :=
  ∑ j : Fin 40, Ideal.exp (y (ix2 p j) - rowMax y p)

/-- Row-wise log-softmax of `a` plus the bias row `b`. -/
def logSoftmaxRows (a : S100000x40.Idx → EReal) (b : S1x40.Idx → EReal) : S100000x40.Idx → EReal :=
  fun i => (addRow a b i - rowMax (addRow a b) (i 0)) - Ideal.log (rowSumExp (addRow a b) (i 0))

end Cert.KernelIdeal.Spec

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Region0.lean ====
/-
  The first pallas_call (a [10000, 64] block of x times the whole [64, 64] weight, ten blocks) leaves in its result array the
  matrix product of its two operand arrays as the region finds them: entry (p, o) = ∑ k, x (p, k) · w (k, o).
  Block t of the result is rows 10000 t … 10000 t + 9999; its row p is row 10000 t + p of x times w; the ten blocks tile the
  100000 rows, so the array ends at the product.
-/
import proofs.«111087_j72662256714549_1_alg».proof.Proof.Gen.KernelIdeal.Frame
import proofs.«111087_j72662256714549_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«111087_j72662256714549_1_alg».proof.Proof.LibPlainMatmul

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen

-- the buffers' contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-! ## The block product's index maps: rows kept, the 64 columns of the left against the 64 rows of the right -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's stored value at (p, o): row p of the loaded block times column o of the loaded weight (the change of format
    before the store is the identity on the extended reals). -/
theorem pay_apply (a : FVec Ideal S10000x64 .bf16) (w : FVec Ideal S64x64 .bf16) (p : Fin 10000) (o : Fin 64) :
    k0_pay1 (F := Ideal) a w (ix2 p o) = ∑ k : Fin 64, a (ix2 p k) * w (ix2 k o) := by
  unfold k0_pay1
  rw [shapeCast_self, shapeCast_self]
  exact Cert.LibPlainMatmul.matmul_zero_apply dot_S10000x64_S64x64_S10000x64_1_0_0_1_n_n none rfl rfl
    lhs_axis0 lhs_axis1 rhs_axis0 rhs_axis1 a w p o

/-- The printed index maps over the grid: the row-blocked windows sit at block (t, 0), the weight at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block whose rows are rows 10000 t … of `A`, against a weight that is `W`: its stored value at `j` is the whole product
    at the array index `i` that sits at `j` inside block `t`. -/
theorem block_value (A : S100000x64.Idx → EReal) (W : S64x64.Idx → EReal)
    (a : FVec Ideal S10000x64 .bf16) (w : FVec Ideal S64x64 .bf16) (tv : Nat)
    (ha : ∀ (p : Fin 10000) (k : Fin 64) (i' : S100000x64.Idx), (i' 0).val = tv * 10000 + p.val → (i' 1).val = k.val → a (ix2 p k) = A i')
    (hw : ∀ (k : Fin 64) (o : Fin 64), w (ix2 k o) = W (ix2 k o))
    (j : S10000x64.Idx) (i : S100000x64.Idx) (hi0 : (i 0).val = tv * 10000 + (j 0).val) (hi1 : (i 1).val = (j 1).val) :
    k0_pay1 (F := Ideal) a w j = Spec.rowsTimes A W i := by
  obtain ⟨p, q, rfl⟩ : ∃ (p : Fin 10000) (q : Fin 64), j = ix2 p q := ⟨j 0, j 1, eq_ix2 j⟩
  rw [pay_apply]
  unfold Spec.rowsTimes
  refine Finset.sum_congr rfl fun k _ => ?_
  rw [ha p k (ix2 (i 0) k) hi0 rfl, hw k q]
  have e : (ix2 k (i 1) : S64x64.Idx) = ix2 k q := by
    funext d; apply Fin.ext
    match d with
    | ⟨0, _⟩ => rfl
    | ⟨1, _⟩ => exact hi1
  rw [e]

/-- WHAT POINT `t` WRITES BACK is block `t` of the product of the two operand arrays. -/
theorem flushed_eq (c : Dev nD) (t : Fin cfg0.N) :
    (dat0 (F := Ideal) V c).flushed 2 t
      = ((cfg0.win 2).blk t).view.read (Elt Ideal) (Spec.rowsTimes (V c main_v30) (V c main_v31)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  show k0_pay1 (F := Ideal) (iblk0 V c 0 t) (iblk0 V c 1 t) j
      = Spec.rowsTimes (V c main_v30) (V c main_v31) (((cfg0.win 2).blk t).view.emb j)
  refine block_value (V c main_v30) (V c main_v31) _ _ t.val ?_ ?_ j _ ?_ ?_
  · intro p k i' h0 h1
    show V c main_v30 (((cfg0.win 0).blk t).view.emb (ix2 p k)) = V c main_v30 i'
    refine congrArg _ (funext fun d => Fin.ext ?_)
    match d with
    | ⟨0, _⟩ => show win0_0.index t (0 : Fin 2) * 10000 + 1 * p.val = (i' 0).val; rw [e0, h0]; omega
    | ⟨1, _⟩ => show win0_0.index t (1 : Fin 2) * 64 + 1 * k.val = (i' 1).val; rw [e1, h1]; omega
  · intro k o
    show V c main_v31 (((cfg0.win 1).blk t).view.emb (ix2 k o)) = V c main_v31 (ix2 k o)
    refine congrArg _ (funext fun d => Fin.ext ?_)
    match d with
    | ⟨0, _⟩ => show win0_1.index t (0 : Fin 2) * 64 + 1 * k.val = k.val; rw [e2]; omega
    | ⟨1, _⟩ => show win0_1.index t (1 : Fin 2) * 64 + 1 * o.val = o.val; rw [e3]; omega
  · show win0_2.index t (0 : Fin 2) * 10000 + 1 * (j 0).val = t.val * 10000 + (j 0).val; rw [e4]; omega
  · show win0_2.index t (1 : Fin 2) * 64 + 1 * (j 1).val = (j 1).val; rw [e5]; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every row lies in the block of the point its row number divided by 10000 names. -/
theorem cover (i : S100000x64.Idx) : ∃ t : Fin cfg0.N, (cfg0.win 2).flush t = true ∧ i ∈ ((cfg0.win 2).blk t).view.set := by
  have hN : grid0.N = 10 := N_0
  have hi0 : (i 0).val < 100000 := (i 0).isLt
  have hi1 : (i 1).val < 64 := (i 1).isLt
  let t : Fin cfg0.N := ⟨(i 0).val / 10000, by show (i 0).val / 10000 < grid0.N; omega⟩
  refine ⟨t, flush0_2 t, ?_⟩
  rw [mem_blk]
  obtain ⟨e0, e1, e2, e3, e4, e5⟩ := idx_facts t
  have ht : t.val = (i 0).val / 10000 := rfl
  intro a
  match a with
  | ⟨0, _⟩ => show win0_2.index t (0 : Fin 2) * 10000 ≤ (i 0).val ∧ (i 0).val < win0_2.index t (0 : Fin 2) * 10000 + 10000; rw [e4]; omega
  | ⟨1, _⟩ => show win0_2.index t (1 : Fin 2) * 64 ≤ (i 1).val ∧ (i 1).val < win0_2.index t (1 : Fin 2) * 64 + 64; rw [e5]; omega

/-- After the ten grid points the result array holds the product of the two operand arrays. -/
theorem final (c : Dev nD) :
    (dat0 (F := Ideal) V c).arrAt 2 cfg0.N = Spec.rowsTimes (V c main_v30) (V c main_v31) :=
  (dat0 (F := Ideal) V c).arrAt_eq_of_cover 2 (Spec.rowsTimes (V c main_v30) (V c main_v31)) (fun t _ => flushed_eq V c t) cover

end Cert.KernelIdeal.Region0

end
-- ==== Proof.Region1.lean ====
/-
  The second pallas_call (bias, positive part, then a [10000, 64] block times the whole [64, 40] weight, ten blocks) leaves in
  its result array max (a + b, 0) · w of its three operand arrays as the region finds them.
-/
import proofs.«111087_j72662256714549_1_alg».proof.Proof.Gen.KernelIdeal.Frame
import proofs.«111087_j72662256714549_1_alg».proof.Proof.Spec
import proofs.«111087_j72662256714549_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen

-- the buffers' contents when the region is entered: any
variable (V : (c : Dev nD) → (b : Ref sig .tc) → Buf (Elt Ideal) ((c : Thread nD τ).loc b))

/-- The offset of an access to a whole buffer, as the constant function 0. -/
theorem hz : (![0, 0] : Fin 2 → Nat) = fun _ => 0 := funext fun a => by fin_cases a <;> rfl

/-- The block index maps at the ten points: the row-blocked windows (the input rows, the result rows) are at block row
    `t`, column block 0; the bias row and the weight stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The product's index maps: left rows and right columns kept, the left columns summed against the right rows -/

/-- The left operand is read at the result's row … -/
theorem lhs_row (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide),
    dif_pos (show (0 : Fin S10000x64.rank) ∈ dot_S10000x64_S64x40_S10000x40_1_0_0_1_n_n.lhsNonContracting by decide)]
  rfl

/-- … and at the summation index as its column; -/
theorem lhs_col (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q

/-- the right operand at the summation index as its row … -/
theorem rhs_row (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q

/-- … and at the result's column. -/
theorem rhs_col (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide),
    dif_pos (show (1 : Fin S64x40.rank) ∈ dot_S10000x64_S64x40_S10000x40_1_0_0_1_n_n.rhsNonContracting by decide)]
  rfl

/-! ## One block's arithmetic, entry by entry -/

/-- Entry (p, o) of what the body computes from a block `a` of rows, the bias row `b` and the weight `w`:
    ∑ k, max (a (p, k) + b (0, k), 0) · w (k, o). The format changes are the identity on extended reals. -/
theorem pay_apply (a : FVec Ideal S10000x64 .f32) (b : FVec Ideal S1x64 .f32) (w : FVec Ideal S64x40 .bf16)
    (p : Fin 10000) (o : Fin 40) :
    k1_pay1 (F := Ideal) a b w (ix2 p o)
      = ∑ k : Fin 64, max (a (ix2 p k) + b (ix2 0 k)) (Ideal.ofBits .f32 0x00000000#32) * w (ix2 k o) := by
  unfold k1_pay1
  simp only [shapeCast_self]
  rw [truncf_apply]
  refine (Cert.LibPlainMatmul.matmul_zero_apply dot_S10000x64_S64x40_S10000x40_1_0_0_1_n_n none rfl rfl lhs_row lhs_col rhs_row rhs_col _ _ p o).trans ?_
  refine Finset.sum_congr rfl fun k _ => ?_
  refine congrArg (· * w (ix2 k o)) ?_
  rw [truncf_apply, maximumf_apply, addf_apply, broadcastTo_1b_ab_apply]
  rfl

/-! ## The blocks as parts of the arrays -/

/-- Row `p` of the input rows' block at point `t` is row `t · 10000 + p` of the array. -/
theorem rows_blk_apply (c : Dev nD) (t : Fin cfg1.N) (p : Fin 10000) (k : Fin 64) (r : Fin 100000)
    (hr : r.val = t.val * 10000 + p.val) :
    (iblk1 (F := Ideal) V c 0 t : FVec Ideal S10000x64 .f32) (ix2 p k) = V c main_v46 (ix2 r k) := by
  obtain ⟨e00, e01, -⟩ := idx_facts t
  show V c main_v46 (((cfg1.win 0).blk t).view.emb (ix2 p k)) = V c main_v46 (ix2 r k)
  refine congrArg (V c main_v46) (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

/-- The bias row's one block is the bias row. -/
theorem bias_blk_apply (c : Dev nD) (t : Fin cfg1.N) (k : Fin 64) :
    (iblk1 (F := Ideal) V c 1 t : FVec Ideal S1x64 .f32) (ix2 0 k) = V c main_v47 (ix2 0 k) := by
  obtain ⟨-, -, e10, e11, -⟩ := idx_facts t
  show V c main_v47 (((cfg1.win 1).blk t).view.emb (ix2 0 k)) = V c main_v47 (ix2 0 k)
  refine congrArg (V c main_v47) (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

/-- The weight's one block is the weight. -/
theorem weight_blk_apply (c : Dev nD) (t : Fin cfg1.N) (k : Fin 64) (o : Fin 40) :
    (iblk1 (F := Ideal) V c 2 t : FVec Ideal S64x40 .bf16) (ix2 k o) = V c main_v48 (ix2 k o) := by
  obtain ⟨-, -, -, -, e20, e21, -⟩ := idx_facts t
  show V c main_v48 (((cfg1.win 2).blk t).view.emb (ix2 k o)) = V c main_v48 (ix2 k o)
  refine congrArg (V c main_v48) (funext fun a => Fin.ext ?_)
  match a with
  | ⟨0, _⟩ => show win1_2.index t (0 : Fin 2) * 64 + 1 * k.val = k.val; omega
  | ⟨1, _⟩ => show win1_2.index t (1 : Fin 2) * 40 + 1 * o.val = o.val; omega

/-- A block of rows `n · 10000 + p` of `A`, the row `B` and the array `W`, put through the body's arithmetic, give at
    block entry `j` the whole-array function at the array entry `i` that `j` is: row `n · 10000 + j 0`, column `j 1`. -/
theorem block_value (A : S100000x64.Idx → EReal) (B : S1x64.Idx → EReal) (W : S64x40.Idx → EReal)
    (a : FVec Ideal S10000x64 .f32) (b : FVec Ideal S1x64 .f32) (w : FVec Ideal S64x40 .bf16) (n : Nat)
    (ha : ∀ (p : Fin 10000) (k : Fin 64) (r : Fin 100000), r.val = n * 10000 + p.val → a (ix2 p k) = A (ix2 r k))
    (hb : ∀ k : Fin 64, b (ix2 0 k) = B (ix2 0 k))
    (hw : ∀ (k : Fin 64) (o : Fin 40), w (ix2 k o) = W (ix2 k o))
    (j : S10000x40.Idx) (i : S100000x40.Idx)
    (h0 : (i 0).val = n * 10000 + (j 0).val) (h1 : (i 1).val = (j 1).val) :
    k1_pay1 (F := Ideal) a b w j = Spec.reluRowsTimes A B W i := by
  have hj : j = ix2 (n0 := 10000) (n1 := 40) (j 0) (j 1) := funext fun d => by
    match d with
    | ⟨0, _⟩ => rfl
    | ⟨1, _⟩ => rfl
  refine ((congrArg (k1_pay1 (F := Ideal) a b w) hj).trans (pay_apply a b w (j 0) (j 1))).trans ?_
  show _ = ∑ k : Fin 64, max (A (ix2 (i 0) k) + B (ix2 0 k)) (Ideal.ofBits .f32 0x00000000#32) * W (ix2 k (i 1))
  refine Finset.sum_congr rfl fun k _ => ?_
  have ea : a (ix2 (j 0) k) = A (ix2 (i 0) k) := ha (j 0) k (i 0) h0
  have ew : w (ix2 k (j 1)) = W (ix2 k (i 1)) :=
    (hw k (j 1)).trans (congrArg (fun x => W (ix2 k x)) (Fin.ext h1.symm))
  rw [ea, hb k, ew]

/-! ## What each point writes back, and the array at the end -/

/-- Point `t` writes back block `t` of max (a + b, 0) · w of the operand arrays. -/
theorem flushed_eq (c : Dev nD) (t : Fin cfg1.N) :
    (dat1 (F := Ideal) V c).flushed 3 t
      = ((cfg1.win 3).blk t).view.read (Elt Ideal) (Spec.reluRowsTimes (V c main_v46) (V c main_v47) (V c main_v48)) := by
  show (cfg1.win 3).cut (grid1.coords t) ((dat1 (F := Ideal) V c).after 3 t) = _
  rw [after1_3]
  unfold out1_3
  rw [View.canon_unit_zero hz]
  simp only [View.ld_unit_zero (S := S10000x64) hz, View.ld_unit_zero (S := S1x64) hz, View.ld_unit_zero (S := S64x40) hz]
  obtain ⟨-, -, -, -, -, -, e30, e31⟩ := idx_facts t
  funext j
  show k1_pay1 (F := Ideal) (iblk1 V c 0 t) (iblk1 V c 1 t) (iblk1 V c 2 t) j
    = Spec.reluRowsTimes (V c main_v46) (V c main_v47) (V c main_v48) (((cfg1.win 3).blk t).view.emb j)
  refine block_value (V c main_v46) (V c main_v47) (V c main_v48) (iblk1 V c 0 t) (iblk1 V c 1 t) (iblk1 V c 2 t) t.val
    (rows_blk_apply V c t) (bias_blk_apply V c t) (weight_blk_apply V c t) j _ ?_ ?_
  · show win1_3.index t (0 : Fin 2) * 10000 + 1 * (j 0).val = t.val * 10000 + (j 0).val
    omega
  · show win1_3.index t (1 : Fin 2) * 40 + 1 * (j 1).val = (j 1).val
    omega

/-- An entry of the result array is in point `t`'s block iff each coordinate is in the block's range on its axis. -/
theorem mem_blk (t : Fin cfg1.N) (i : S100000x40.Idx) :
    i ∈ ((cfg1.win 3).blk t).view.set ↔ ∀ a : Fin 2, win1_3.index t a * S10000x40.size a ≤ (i a).val
      ∧ (i a).val < win1_3.index t a * S10000x40.size a + S10000x40.size a := by
  show i ∈ ((View.whole main_v49).slice (win1_3.rect t)).set ↔ _
  rw [View.set_slice_whole, Rect.mem_set_unit]
  exact Iff.rfl

/-- The ten blocks of 10000 rows fill the 100000 rows: row `r` is in the block of point `r / 10000`. -/
theorem cover (i : S100000x40.Idx) :
    ∃ t : Fin cfg1.N, (cfg1.win 3).flush t = true ∧ i ∈ ((cfg1.win 3).blk t).view.set := by
  have hN : grid1.N = 10 := N_1
  have hi0 : (i 0).val < 100000 := (i 0).isLt
  have hi1 : (i 1).val < 40 := (i 1).isLt
  have ht : (i 0).val / 10000 < grid1.N := by omega
  obtain ⟨-, -, -, -, -, -, e30, e31⟩ := idx_facts ⟨(i 0).val / 10000, ht⟩
  have e30' : win1_3.index ⟨(i 0).val / 10000, ht⟩ (0 : Fin 2) = (i 0).val / 10000 := e30
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    omega
  | ⟨1, _⟩ =>
    show win1_3.index ⟨(i 0).val / 10000, ht⟩ (1 : Fin 2) * 40 ≤ (i 1).val
      ∧ (i 1).val < win1_3.index ⟨(i 0).val / 10000, ht⟩ (1 : Fin 2) * 40 + 40
    omega

/-- After the ten grid points the result array holds max (a + b, 0) times w. -/
theorem final (c : Dev nD) :
    (dat1 (F := Ideal) V c).arrAt 3 cfg1.N = Spec.reluRowsTimes (V c main_v46) (V c main_v47) (V c main_v48) :=
  (dat1 (F := Ideal) V c).arrAt_eq_of_cover 3 (Spec.reluRowsTimes (V c main_v46) (V c main_v47) (V c main_v48))
    (fun t _ => flushed_eq V c t) cover

end Cert.KernelIdeal.Region1

end
-- ==== Proof.Region2.lean ====
/-
  The third pallas_call (bias, then the row-wise log-softmax of a [10000, 40] block, ten blocks) leaves in its result array
  the row-wise log-softmax of a + b of its two operand arrays as the region finds them.
-/
import proofs.«111087_j72662256714549_1_alg».proof.Proof.Gen.KernelIdeal.Frame
import proofs.«111087_j72662256714549_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen

/-! ## Index bookkeeping -/

theorem hz : (![0, 0] : Fin 2 → Nat) = fun _ => 0 := funext fun a => by fin_cases a <;> rfl

/-- The index maps over the ten grid points: the two row-blocked windows (operand 0 and the result) sit at block row `t`,
    block column 0; the bias row's window stays at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A row index with the reduced lane put back is the pair (row, lane). -/
theorem lift_row (p : Fin 10000) (k : Fin 40) :
    reduces_S10000x40_S10000.lift (ix1 p) k = ix2 p k := by
  funext a; apply Fin.ext
  match a with
  | ⟨0, _⟩ => rfl
  | ⟨1, _⟩ => rfl

/-! ## The shape changes of a kept unit axis -/

/-- A length-10000 vector seen as a [10000, 1] column reads, at (p, 0), the vector at p. -/
theorem column_apply {α : Type} (x : S10000.Idx → α) (h : S10000.ShapeCasts S10000x1) (p : Fin 10000) :
    shapeCast S10000x1 x h (ix2 p (0 : Fin 1)) = x (ix1 p) :=
  shapeCast_apply x h _ _ (by
    rw [Shape.rowMajor_val_one, Shape.rowMajor_val_two]
    show p.val = p.val * 1 + 0
    omega)

/-- A [10000, 1] column spread over the 40 lanes reads, at (p, j), the column at (p, 0). -/
theorem lanes_apply {α : Type} (x : S10000x1.Idx → α) (h : S10000x1.Broadcasts S10000x40) (p : Fin 10000) (j : Fin 40) :
    broadcastTo S10000x40 x h (ix2 p j) = x (ix2 p (0 : Fin 1)) :=
  broadcastTo_apply x h _ _ (fun a => by
    match a with
    | ⟨0, _⟩ => rfl
    | ⟨1, _⟩ => rfl)

/-- The [1, 40] row spread over the 10000 rows reads, at an index of lane j, the row at (0, j). -/
theorem rows_apply {α : Type} (x : S1x40.Idx → α) (h : S1x40.Broadcasts S10000x40) (i : S10000x40.Idx) :
    broadcastTo S10000x40 x h i = x (ix2 (0 : Fin 1) (i 1)) :=
  broadcastTo_apply x h _ _ (fun a => by
    match a with
    | ⟨0, _⟩ => rfl
    | ⟨1, _⟩ => rfl)

/-! ## The body's arithmetic at an index of the block -/

/-- The maximum of row `p` of a [10000, 40] block: the fold of max from the word −∞ over its 40 lanes. -/
def blockRowMax (y : FVec Ideal S10000x40 .f32) (p : Fin 10000) : EReal :=
  (Finset.univ : Finset (Fin 40)).fold max (Ideal.ofBits .f32 0xFF800000#32) (fun j' => y (ix2 p j'))

/-- The lane maximum, kept as a unit axis and spread back over the lanes, is the row's maximum at every lane. -/
theorem rowMax_spread (y : FVec Ideal S10000x40 .f32) (hsc : S10000.ShapeCasts S10000x1) (hbc : S10000x1.Broadcasts S10000x40)
    (p : Fin 10000) (j : Fin 40) :
    broadcastTo S10000x40 (shapeCast S10000x1
        (multiReduction (F := Ideal) .maximumf [1] S10000 y 0xFF800000#32 reduces_S10000x40_S10000 (.inl rfl) rfl) hsc) hbc (ix2 p j)
      = blockRowMax y p := by
  rw [lanes_apply, column_apply]
  refine (Ideal.multiReduction_maximumf_single y _ reduces_S10000x40_S10000 _ _ (ix1 p)).trans ?_
  exact congrArg (fun f : Fin 40 → EReal => (Finset.univ : Finset (Fin 40)).fold max (Ideal.ofBits .f32 0xFF800000#32) f)
    (funext fun k => congrArg y (lift_row p k))

/-- The log-softmax of a block `y`, as the body computes it, at (p, j). -/
theorem logSoftmax_apply (y : FVec Ideal S10000x40 .f32) (hsc : S10000.ShapeCasts S10000x1) (hbc : S10000x1.Broadcasts S10000x40)
    (p : Fin 10000) (j : Fin 40) :
    subf (subf y (broadcastTo S10000x40 (shapeCast S10000x1
            (multiReduction (F := Ideal) .maximumf [1] S10000 y 0xFF800000#32 reduces_S10000x40_S10000 (.inl rfl) rfl) hsc) hbc))
        (broadcastTo S10000x40 (log (shapeCast S10000x1
            (multiReduction (F := Ideal) .add [1] S10000
              (exp (subf y (broadcastTo S10000x40 (shapeCast S10000x1
                (multiReduction (F := Ideal) .maximumf [1] S10000 y 0xFF800000#32 reduces_S10000x40_S10000 (.inl rfl) rfl) hsc) hbc)))
              0x00000000#32 reduces_S10000x40_S10000 (.inl rfl) rfl) hsc)) hbc) (ix2 p j)
      = (y (ix2 p j) - blockRowMax y p)
          - Ideal.log (∑ j' : Fin 40, Ideal.exp (y (ix2 p j') - blockRowMax y p)) := by
  show (y (ix2 p j) - _) - _ = _
  rw [rowMax_spread y hsc hbc p j, lanes_apply]
  show _ - Ideal.log (shapeCast S10000x1 _ hsc (ix2 p (0 : Fin 1))) = _
  rw [column_apply]
  refine congrArg (fun z => (y (ix2 p j) - blockRowMax y p) - Ideal.log z) ?_
  refine (Ideal.multiReduction_add_single _ _ reduces_S10000x40_S10000 _ _ (ix1 p)).trans ?_
  show (∑ k : Fin 40, _) = _
  refine Finset.sum_congr rfl fun k _ => ?_
  rw [lift_row]
  show Ideal.exp (y (ix2 p k) - _) = _
  rw [rowMax_spread y hsc hbc p k]

/-- THE PAYLOAD AT AN INDEX: with y = a + b (the bias row added to every row of the block), the body stores at (p, j)
    (y (p, j) − M) − log ∑ j', exp (y (p, j') − M), M the maximum of row p of y. -/
theorem pay_apply (a : FVec Ideal S10000x40 .f32) (b : FVec Ideal S1x40 .f32) (p : Fin 10000) (j : Fin 40) :
    k2_pay1 (F := Ideal) a b (ix2 p j)
      = ((a (ix2 p j) + b (ix2 (0 : Fin 1) j)) - blockRowMax (fun i => a i + b (ix2 (0 : Fin 1) (i 1))) p)
          - Ideal.log (∑ j' : Fin 40, Ideal.exp ((a (ix2 p j') + b (ix2 (0 : Fin 1) j'))
              - blockRowMax (fun i => a i + b (ix2 (0 : Fin 1) (i 1))) p)) := by
  have hy : addf (shapeCast S10000x40 a shapeCasts_S10000x40_S10000x40)
        (broadcastTo S10000x40 (shapeCast S1x40 b shapeCasts_S1x40_S1x40) broadcasts_S1x40_S10000x40)
      = (fun i => a i + b (ix2 (0 : Fin 1) (i 1)) : FVec Ideal S10000x40 .f32) := by
    rw [shapeCast_self, shapeCast_self]
    funext i
    show a i + broadcastTo S10000x40 b broadcasts_S1x40_S10000x40 i = _
    rw [rows_apply]
  unfold k2_pay1
  dsimp only
  rw [hy]
  exact logSoftmax_apply _ _ _ p j

/-! ## From a block to the array -/

/-- When row `p` of the block `a` is row `r` of the array `A` and the block `b` is the row `B`, the body's value at
    (p, j) is the specification's at (r, j): a row's log-softmax reads that row only. -/
theorem pay_eq_spec (A : S100000x40.Idx → EReal) (B : S1x40.Idx → EReal)
    (a : FVec Ideal S10000x40 .f32) (b : FVec Ideal S1x40 .f32) (p : Fin 10000) (r : Fin 100000)
    (ha : ∀ k : Fin 40, a (ix2 p k) = A (ix2 r k)) (hb : ∀ k : Fin 40, b (ix2 (0 : Fin 1) k) = B (ix2 (0 : Fin 1) k)) (j : Fin 40) :
    k2_pay1 (F := Ideal) a b (ix2 p j) = Spec.logSoftmaxRows A B (ix2 r j) := by
  rw [pay_apply]
  show ((a (ix2 p j) + b (ix2 (0 : Fin 1) j))
        - (Finset.univ : Finset (Fin 40)).fold max (Ideal.ofBits .f32 0xFF800000#32) (fun j' => a (ix2 p j') + b (ix2 (0 : Fin 1) j')))
      - Ideal.log (∑ j' : Fin 40, Ideal.exp ((a (ix2 p j') + b (ix2 (0 : Fin 1) j'))
        - (Finset.univ : Finset (Fin 40)).fold max (Ideal.ofBits .f32 0xFF800000#32) (fun j' => a (ix2 p j') + b (ix2 (0 : Fin 1) j'))))
    = ((A (ix2 r j) + B (ix2 (0 : Fin 1) j))
        - (Finset.univ : Finset (Fin 40)).fold max (Ideal.ofBits .f32 0xFF800000#32) (fun j' => A (ix2 r j') + B (ix2 (0 : Fin 1) j')))
      - Ideal.log (∑ j' : Fin 40, Ideal.exp ((A (ix2 r j') + B (ix2 (0 : Fin 1) j'))
        - (Finset.univ : Finset (Fin 40)).fold max (Ideal.ofBits .f32 0xFF800000#32) (fun j' => A (ix2 r j') + B (ix2 (0 : Fin 1) j'))))
  simp only [ha, hb]

/-- The same at any index `j` of the block and any index `i` of the array in the same lane. -/
theorem pay_eq_spec_at (A : S100000x40.Idx → EReal) (B : S1x40.Idx → EReal)
    (a : FVec Ideal S10000x40 .f32) (b : FVec Ideal S1x40 .f32) (j : S10000x40.Idx) (i : S100000x40.Idx)
    (ha : ∀ k : Fin 40, a (ix2 (j 0) k) = A (ix2 (i 0) k)) (hb : ∀ k : Fin 40, b (ix2 (0 : Fin 1) k) = B (ix2 (0 : Fin 1) k))
    (h1 : (i 1).val = (j 1).val) :
    k2_pay1 (F := Ideal) a b j = Spec.logSoftmaxRows A B i := by
  have hj : j = ix2 (j 0) (j 1) := eq_ix2 (n0 := 10000) (n1 := 40) j
  have hi : i = ix2 (i 0) (j 1) :=
    (eq_ix2 (n0 := 100000) (n1 := 40) i).trans (congrArg (ix2 (i 0)) (Fin.ext h1))
  have h := pay_eq_spec A B a b (j 0) (i 0) ha hb (j 1)
  exact (congrArg (k2_pay1 (F := Ideal) a b) hj).trans (h.trans (congrArg (Spec.logSoftmaxRows A B) hi.symm))

-- the buffers' contents when the region is entered: any
variable (V : (c : Dev nD) → (b : Ref sig .tc) → Buf (Elt Ideal) ((c : Thread nD τ).loc b))

/-- WHAT POINT `t` WRITES BACK is block `t` of the specification's function of the two operand arrays. -/
theorem flushed_eq (c : Dev nD) (t : Fin cfg2.N) :
    (dat2 (F := Ideal) V c).flushed 2 t
      = ((cfg2.win 2).blk t).view.read (Elt Ideal) (Spec.logSoftmaxRows (V c main_v63) (V c main_v64)) := by
  show (cfg2.win 2).cut (grid2.coords t) ((dat2 (F := Ideal) V c).after 2 t) = _
  rw [after2_2]
  unfold out2_2
  rw [View.canon_unit_zero hz]
  simp only [View.ld_unit_zero (S := S10000x40) hz, View.ld_unit_zero (S := S1x40) hz]
  obtain ⟨e0, e1, e2, e3, e4, e5⟩ := idx_facts t
  funext j
  show k2_pay1 (F := Ideal) (iblk2 V c 0 t) (iblk2 V c 1 t) j
    = Spec.logSoftmaxRows (V c main_v63) (V c main_v64) (((cfg2.win 2).blk t).view.emb j)
  refine pay_eq_spec_at (V c main_v63) (V c main_v64) _ _ j _ ?_ ?_ ?_
  · intro k
    show V c main_v63 (((cfg2.win 0).blk t).view.emb (ix2 (j 0) k)) = _
    refine congrArg (V c main_v63) (funext fun d => Fin.ext ?_)
    match d with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 40 + 1 * k.val = k.val
      omega
  · intro k
    show V c main_v64 (((cfg2.win 1).blk t).view.emb (ix2 (0 : Fin 1) k)) = _
    refine congrArg (V c main_v64) (funext fun d => Fin.ext ?_)
    match d with
    | ⟨0, _⟩ =>
      show win2_1.index t (0 : Fin 2) * 1 + 1 * 0 = 0
      omega
    | ⟨1, _⟩ =>
      show win2_1.index t (1 : Fin 2) * 40 + 1 * k.val = k.val
      omega
  · show win2_2.index t (1 : Fin 2) * 40 + 1 * (j 1).val = (j 1).val
    omega

/-- An index of the array is in point `t`'s block iff each coordinate is in the block's range on its axis. -/
theorem mem_blk (t : Fin cfg2.N) (i : S100000x40.Idx) :
    i ∈ ((cfg2.win 2).blk t).view.set ↔ ∀ a : Fin 2, win2_2.index t a * S10000x40.size a ≤ (i a).val
      ∧ (i a).val < win2_2.index t a * S10000x40.size a + S10000x40.size a := by
  show i ∈ ((View.whole main_v65).slice (win2_2.rect t)).set ↔ _
  rw [View.set_slice_whole, Rect.mem_set_unit]
  exact Iff.rfl

/-- The ten blocks tile the array: row r lies in the block of point r / 10000. -/
theorem cover (i : S100000x40.Idx) :
    ∃ t : Fin cfg2.N, (cfg2.win 2).flush t = true ∧ i ∈ ((cfg2.win 2).blk t).view.set := by
  have hN : grid2.N = 10 := N_2
  have hi0 : (i 0).val < 100000 := (i 0).isLt
  have hi1 : (i 1).val < 40 := (i 1).isLt
  have hlt : (i 0).val / 10000 < grid2.N := by rw [hN]; omega
  refine ⟨⟨(i 0).val / 10000, hlt⟩, flush2_2 _, ?_⟩
  rw [mem_blk]
  obtain ⟨e0, e1, e2, e3, e4, e5⟩ := idx_facts ⟨(i 0).val / 10000, hlt⟩
  have e4' : win2_2.index ⟨(i 0).val / 10000, hlt⟩ (0 : Fin 2) = (i 0).val / 10000 := e4
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    omega
  | ⟨1, _⟩ =>
    show win2_2.index ⟨(i 0).val / 10000, hlt⟩ (1 : Fin 2) * 40 ≤ (i 1).val
      ∧ (i 1).val < win2_2.index ⟨(i 0).val / 10000, hlt⟩ (1 : Fin 2) * 40 + 40
    omega

/-- After the ten grid points the result array holds the row-wise log-softmax of a + b. -/
theorem final (c : Dev nD) :
    (dat2 (F := Ideal) V c).arrAt 2 cfg2.N = Spec.logSoftmaxRows (V c main_v63) (V c main_v64) :=
  (dat2 (F := Ideal) V c).arrAt_eq_of_cover 2 (Spec.logSoftmaxRows (V c main_v63) (V c main_v64))
    (fun t _ => flushed_eq V c t) cover

end Cert.KernelIdeal.Region2

end
-- ==== Proof.RefDots.lean ====
/-
  The reference's two dense transforms are the specification's products.

  The reference computes x · W1 by one host dot_general over all rows and, after the first aggregation, max (agg + b1, 0) · W2 by
  a broadcast of the bias, an add, a maximum with the zero splat and a second dot_general. Read at an index each is the
  specification's sum over the 64 contracted entries; the bias row enters the kernel reshaped [64] → [1, 64], which reads back
  the same entries.
-/
import proofs.«111087_j72662256714549_1_alg».proof.Proof.RefRead
import proofs.«111087_j72662256714549_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.RefStages

open Cert.KernelIdeal

variable (x0 : FVec Ideal S100000x64 .f32) (x1 : IVec S2x1250000 32) (x2 : FVec Ideal S64x64 .f32) (x3 : FVec Ideal S64 .f32)
  (x4 : FVec Ideal S64x40 .f32) (x5 : FVec Ideal S40 .f32)

/-- A length-64 vector seen as a [1, 64] row reads, at (0, q), the vector at q. -/
theorem row64_apply {α : Type} (x : S64.Idx → α) (h : S64.ShapeCasts S1x64) (q : Fin 64) :
    shapeCast S1x64 x h (ix2 (0 : Fin 1) q) = x (ix1 q) :=
  shapeCast_apply x h _ _ (by
    rw [Shape.rowMajor_val_one, Shape.rowMajor_val_two]
    show q.val = (0 : Fin 1).val * 64 + q.val
    simp)

/-- The first layer's transform: the host's dot_general of x and W1 is the plain product. -/
theorem dot1 : Spec.rowsTimes x0 x2 = Cert.ReferenceIdeal.ReadP.val_main_v30 (F := Ideal) x0 x2 := by
  funext i
  obtain ⟨p, o, rfl⟩ : ∃ (p : Fin 100000) (o : Fin 64), i = ix2 p o := ⟨i 0, i 1, eq_ix2 i⟩
  rw [Cert.ReferenceIdeal.ReadP.val_main_v30_apply]
  show (∑ k : Fin 64, x0 (ix2 p k) * x2 (ix2 k o)) = _
  refine Finset.sum_congr rfl fun k _ => ?_
  have el : (ix2 p k : S100000x64.Idx) = Cert.ReferenceIdeal.ReadP.lidx_main_v30 (ix2 p o) k :=
    funext fun a => by match a with | ⟨0, _⟩ => rfl | ⟨1, _⟩ => rfl
  have er : (ix2 k o : S64x64.Idx) = Cert.ReferenceIdeal.ReadP.ridx_main_v30 (ix2 p o) k :=
    funext fun a => by match a with | ⟨0, _⟩ => rfl | ⟨1, _⟩ => rfl
  rw [el, er]

/-- The reference's positive part of (aggregation + bias), at (p, k), is the specification's. -/
theorem relu_apply (h : S64.ShapeCasts S1x64) (p : Fin 100000) (k : Fin 64) :
    Spec.reluBias (Cert.ReferenceIdeal.ReadP.val_main_v43 (F := Ideal) x0 x1 x2) (shapeCast S1x64 x3 h) (ix2 p k)
      = Cert.ReferenceIdeal.ReadP.val_main_v47 (F := Ideal) x0 x1 x2 x3 (ix2 p k) := by
  rw [Cert.ReferenceIdeal.ReadP.val_main_v47_apply, Cert.ReferenceIdeal.ReadP.val_main_v46_apply, Cert.ReferenceIdeal.ReadP.val_main_v45_apply, Cert.ReferenceIdeal.ReadP.val_main_v44_apply,
    Cert.ReferenceIdeal.ReadP.val_main_call1_v0_apply, Cert.ReferenceIdeal.ReadP.val_main_call1_cst_apply]
  show max (Cert.ReferenceIdeal.ReadP.val_main_v43 (F := Ideal) x0 x1 x2 (ix2 p k) + shapeCast S1x64 x3 h (ix2 (0 : Fin 1) k))
      (Ideal.ofBits .f32 0x00000000#32) = _
  rw [row64_apply]
  have e : (ix1 k : S64.Idx) = Cert.ReferenceIdeal.ReadP.idx_main_v44 (Cert.ReferenceIdeal.ReadP.idx_main_v45 (ix2 p k)) :=
    funext fun a => by match a with | ⟨0, _⟩ => rfl
  rw [e]
  rfl

/-- The second layer's transform: bias, positive part and the host's dot_general with W2, over the first aggregation. -/
theorem dot2 (h : S64.ShapeCasts S1x64) :
    Spec.reluRowsTimes (Cert.ReferenceIdeal.ReadP.val_main_v43 (F := Ideal) x0 x1 x2) (shapeCast S1x64 x3 h) x4
      = Cert.ReferenceIdeal.ReadP.val_main_v48 (F := Ideal) x0 x1 x2 x3 x4 := by
  funext i
  obtain ⟨p, o, rfl⟩ : ∃ (p : Fin 100000) (o : Fin 40), i = ix2 p o := ⟨i 0, i 1, eq_ix2 i⟩
  rw [Cert.ReferenceIdeal.ReadP.val_main_v48_apply]
  show (∑ k : Fin 64, Spec.reluBias (Cert.ReferenceIdeal.ReadP.val_main_v43 (F := Ideal) x0 x1 x2) (shapeCast S1x64 x3 h) (ix2 p k) * x4 (ix2 k o)) = _
  refine Finset.sum_congr rfl fun k _ => ?_
  have el : (ix2 p k : S100000x64.Idx) = Cert.ReferenceIdeal.ReadP.lidx_main_v48 (ix2 p o) k :=
    funext fun a => by match a with | ⟨0, _⟩ => rfl | ⟨1, _⟩ => rfl
  have er : (ix2 k o : S64x40.Idx) = Cert.ReferenceIdeal.ReadP.ridx_main_v48 (ix2 p o) k :=
    funext fun a => by match a with | ⟨0, _⟩ => rfl | ⟨1, _⟩ => rfl
  rw [← el, ← er, relu_apply]

end Cert.RefStages

end
-- ==== Proof.RefLsm.lean ====
/-
  The reference's log_softmax of the second aggregation plus the bias is the specification's row-wise log-softmax.

  The reference takes each row's maximum by a max-reduce from −∞ and joins it once more with −∞, which changes nothing (the
  fold already starts there); subtracts it; exponentiates; sums each row from 0; takes the logarithm; subtracts. Read at an
  index that is the specification's (y − M) − log ∑ exp (y − M) with y = agg + b2 and M the row's maximum; the bias row
  enters the kernel reshaped [40] → [1, 40], which reads back the same entries.
-/
import proofs.«111087_j72662256714549_1_alg».proof.Proof.RefRead
import proofs.«111087_j72662256714549_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.RefStages

open Cert.KernelIdeal

variable (x0 : FVec Ideal S100000x64 .f32) (x1 : IVec S2x1250000 32) (x2 : FVec Ideal S64x64 .f32) (x3 : FVec Ideal S64 .f32)
  (x4 : FVec Ideal S64x40 .f32) (x5 : FVec Ideal S40 .f32)

/-! ## The pieces that are not stage-by-stage reading -/

/-- The row index `p` with column `k` put back is (p, k). -/
theorem lift_row (h : S100000x40.Reduces [1] S100000) (p : Fin 100000) (k : Fin (S100000x40.size 1)) :
    h.lift (ix1 p) k = ix2 p (⟨k.val, k.isLt⟩ : Fin 40) := by
  funext c; apply Fin.ext
  match c with | ⟨0, _⟩ => rfl | ⟨1, _⟩ => rfl

/-- The host's reduce with a maximum body along the columns, read at row `p`: the fold of max over the row's 40 entries
    from the initial value. -/
theorem hostReduce_max_row (y : FVec Ideal S100000x40 .f32) (init : FVec Ideal S_ .f32)
    (h' : S100000x40.ReducesTo [1] S100000) (hu : 0 < S_.numel) (p : Fin 100000) :
    Host.reduce FloatOps.maximumf y init h' hu (ix1 p)
      = (Finset.univ : Finset (Fin 40)).fold max (init (Shape.Idx.first hu)) (fun j' => y (ix2 p j')) := by
  have h : S100000x40.Reduces [1] S100000 := by decide
  rw [Host.reduce_eq_fold_single FloatOps.maximumf y init h' h hu]
  have hf : (y ∘ h.lift (ix1 p)) = fun k : Fin 40 => y (ix2 p k) := funext fun k => congrArg y (lift_row h p k)
  exact congrArg (fun f => Finset.fold max (init (Shape.Idx.first hu)) f (Finset.univ : Finset (Fin 40))) hf

/-- Joining a fold of max once more with its own starting value changes nothing: the fold is already above it. -/
theorem max_fold_max_init {ι : Type} (s : Finset ι) (c : EReal) (f : ι → EReal) :
    max c (s.fold max c f) = s.fold max c f :=
  max_eq_right ((Finset.le_fold_max c).2 (Or.inl le_rfl))

/-- A vector of 40 entries cast to one row, read at (0, j), is entry `j`. -/
theorem shapeCast_row_apply (h : S40.ShapeCasts S1x40) (z : FVec Ideal S40 .f32) (j : Fin 40) :
    shapeCast S1x40 z h (ix2 (0 : Fin 1) j) = z (ix1 j) :=
  (shapeCast_addUnit_apply ![40] z h (ix2 (0 : Fin 1) j)).trans
    (congrArg z (funext fun a => by match a with | ⟨0, _⟩ => rfl))

/-! ## The reference's stages, read at an index -/

open Cert.ReferenceIdeal.ReadP in
/-- The bias stage: the second aggregation plus the broadcast bias is the specification's `addRow` with the bias as one row. -/
theorem biased_eq_addRow (h : S40.ShapeCasts S1x40) :
    val_main_v64 (F := Ideal) x0 x1 x2 x3 x4 x5
      = Spec.addRow (val_main_v61 (F := Ideal) x0 x1 x2 x3 x4) (shapeCast S1x40 x5 h) := by
  funext i
  obtain ⟨p, j, rfl⟩ : ∃ (p : Fin 100000) (j : Fin 40), i = ix2 p j := ⟨i 0, i 1, eq_ix2 i⟩
  have hb : shapeCast S1x40 x5 h (ix2 (0 : Fin 1) j) = x5 (idx_main_v62 (idx_main_v63 (ix2 p j))) :=
    (shapeCast_row_apply h x5 j).trans (congrArg x5 (funext fun a => by match a with | ⟨0, _⟩ => rfl))
  rw [val_main_v64_apply, val_main_v63_apply, val_main_v62_apply, Ideal.addf_def, ← hb]
  rfl

open Cert.ReferenceIdeal.ReadP in
/-- The maximum stage: the max-reduce from −∞, joined once more with −∞, is the row's maximum. -/
theorem rowMax_read (p : Fin 100000) :
    val_main_call2_v2 (F := Ideal) x0 x1 x2 x3 x4 x5 (ix1 p)
      = Spec.rowMax (val_main_v64 (F := Ideal) x0 x1 x2 x3 x4 x5) p := by
  rw [val_main_call2_v2_apply, val_main_call2_v1_apply, val_main_call2_cst_0_apply, Ideal.maximumf_def]
  unfold val_main_call2_v0
  rw [hostReduce_max_row, val_main_call2_cst_apply]
  exact max_fold_max_init _ _ _

open Cert.ReferenceIdeal.ReadP in
/-- The centred entries: entry (p, j) minus its row's maximum. -/
theorem centred_read (p : Fin 100000) (j : Fin 40) :
    val_main_call2_v5 (F := Ideal) x0 x1 x2 x3 x4 x5 (ix2 p j)
      = val_main_v64 (F := Ideal) x0 x1 x2 x3 x4 x5 (ix2 p j)
          - Spec.rowMax (val_main_v64 (F := Ideal) x0 x1 x2 x3 x4 x5) p := by
  have hi : idx_main_call2_v3 (idx_main_call2_v4 (ix2 p j)) = ix1 p :=
    funext fun a => by match a with | ⟨0, _⟩ => rfl
  rw [val_main_call2_v5_apply, val_main_call2_v4_apply, val_main_call2_v3_apply, hi, rowMax_read, Ideal.subf_def]

open Cert.ReferenceIdeal.ReadP in
/-- The sum stage: from the word 0, the row's sum of the exponentials of the centred entries. -/
theorem rowSumExp_read (p : Fin 100000) :
    val_main_call2_v7 (F := Ideal) x0 x1 x2 x3 x4 x5 (ix1 p)
      = Spec.rowSumExp (val_main_v64 (F := Ideal) x0 x1 x2 x3 x4 x5) p := by
  rw [val_main_call2_v7_apply, val_main_call2_cst_1_apply, Ideal.ofBits_def, Ideal.ofBits_zero_f32, zero_add]
  unfold Spec.rowSumExp
  refine Finset.sum_congr rfl fun k _ => ?_
  have hk : idx_main_call2_v7 (ix1 p) k = ix2 p k :=
    funext fun a => by match a with | ⟨0, _⟩ => rfl | ⟨1, _⟩ => rfl
  rw [hk, val_main_call2_v6_apply, centred_read, Ideal.hostUnary_exp_def]

/-- The output: bias and the host's log_softmax, over the second aggregation. -/
theorem lsm (h : S40.ShapeCasts S1x40) :
    Spec.logSoftmaxRows (Cert.ReferenceIdeal.ReadP.val_main_v61 (F := Ideal) x0 x1 x2 x3 x4) (shapeCast S1x40 x5 h)
      = Cert.ReferenceIdeal.ReadP.val_main_v65 (F := Ideal) x0 x1 x2 x3 x4 x5 := by
  funext i
  obtain ⟨p, j, rfl⟩ : ∃ (p : Fin 100000) (j : Fin 40), i = ix2 p j := ⟨i 0, i 1, eq_ix2 i⟩
  have hi : Cert.ReferenceIdeal.ReadP.idx_main_call2_v8 (Cert.ReferenceIdeal.ReadP.idx_main_call2_v10 (ix2 p j)) = ix1 p :=
    funext fun a => by match a with | ⟨0, _⟩ => rfl
  rw [Cert.ReferenceIdeal.ReadP.val_main_v65_apply, Cert.ReferenceIdeal.ReadP.val_main_call2_v10_apply,
    Cert.ReferenceIdeal.ReadP.val_main_call2_v9_apply, Cert.ReferenceIdeal.ReadP.val_main_call2_v8_apply, hi,
    rowSumExp_read, centred_read, Ideal.subf_def, Ideal.hostUnary_log_def, biased_eq_addRow x0 x1 x2 x3 x4 x5 h]
  rfl

end Cert.RefStages

end
-- ==== Proof.LibConcatTwo.lean ====
/-
  The concatenation of two arrays along an axis, as a plain function of the two arrays.

  `concatenate` takes its operands as a list of (shape, array) pairs and a fact about that list's shapes. For two operands the
  fact speaks of the two shapes only, so the concatenation is a function `cat2` of the two arrays with every other argument
  fixed: equal first operands and equal second operands give equal concatenations, operand by operand.
-/
import Idealize.ShloMosaic.PureOps

noncomputable section

open Idealize.ShloMosaic

namespace Cert.LibConcatTwo

/-- The two arrays `x` (of shape `s1`) and `y` (of shape `s2`) joined along axis `a` into shape `t`. -/
def cat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

/-- A two-operand `concatenate` is `cat2` of its operands. -/
theorem concatenate_two {α : Type} (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 x y h := rfl

end Cert.LibConcatTwo

end
-- ==== Proof.HostResults.lean ====
/-
  Reading a buffer after a stretch of host operations.

  The contents of the device's buffers after a list of host operations are a fold: each operation rewrites its own result
  buffer to its function of its operands' contents and leaves every other buffer. `host_results` unfolds that fold at one
  buffer in one rewriting pass — shared intermediate results visited once —, entering the operands of a two-operand
  concatenate as well, so that what is left is the operations' pure term over the contents the stretch started from.
-/
import proofs.«111087_j72662256714549_1_alg».proof.Proof.LibConcatTwo
import Idealize.ShloMosaic.Lib.StableHlo.Run

open Idealize.ShloMosaic Idealize.ShloMosaic.StableHlo

/-- One pass over `StableHlo.after ops V b`: every operation's result at its own buffer, every other buffer as before (the
    references' inequalities decided), a two-operand concatenate as a function of its operands. -/
macro "host_results" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcatTwo.concatenate_two])
-- ==== Proof.KernelValue.lean ====
/-
  What the kernel's result array holds after the run, as the reference's own stages of the argument arrays.

  @main is five stretches of host operations around three pallas_calls. Reading the buffers' contents boundary by boundary:
  before the first call the host has the edge lists with the self loops appended (the two index arrays), the symmetric
  normalisation (degree by a scatter of ones, its inverse square root where positive, gathered at both ends of every edge and
  multiplied), and x and W1 in the narrow format; the first call leaves x · W1; the next stretch gathers its rows by source,
  scales by the normalisation and scatter-adds by target — the first aggregation —; the second call leaves
  max (agg + b1, 0) · W2; the same aggregation again; the third call leaves the row-wise log-softmax of agg + b2.

  Everything the host does is the same operations on both sides, whatever the floats are: those facts are stated for an
  arbitrary float family, where two chains of the same operations are compared as written. Only the three calls' values and
  the change of float format (the identity on the extended reals) are read at the ideal instance, and there the chain is
  rewriting alone.
-/
import proofs.«111087_j72662256714549_1_alg».proof.Proof.KernelRun
import proofs.«111087_j72662256714549_1_alg».proof.Proof.Region0
import proofs.«111087_j72662256714549_1_alg».proof.Proof.Region1
import proofs.«111087_j72662256714549_1_alg».proof.Proof.Region2
import proofs.«111087_j72662256714549_1_alg».proof.Proof.RefDots
import proofs.«111087_j72662256714549_1_alg».proof.Proof.RefLsm
import proofs.«111087_j72662256714549_1_alg».proof.Proof.HostResults

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.ReferenceIdeal.ReadP

/-! # For any floats: the host's side -/

section AnyFloats

variable {F : FTy → Type} [FloatOps F]

/-- The aggregation of a [100000, 64] array `h` over the edges: row `src e` of `h` (a negative index wrapped once) scaled by the
    edge's coefficient, added into row `tgt e`, from the zero array. -/
def agg64 (h : FVec F S100000x64 .f32) (src tgt : IVec S1350000 32) (coef : FVec F S1350000 .f32) : FVec F S100000x64 .f32 :=
  Host.scatterAdd scatter_S100000x64_S1350000x1_S1350000x64_1_0_0_1
    (broadcastInDim S100000x64 ![] bcast_S_S100000x64 (constant (F := F) S_ .f32 0x00000000#32))
    (broadcastInDim S1350000x1 ![0] bcast_S1350000_S1350000x1_0 tgt)
    (mulf
      (Host.gather gather_S100000x64_S1350000x1_S1350000x64_1_0_n_n_0_1_164 h
        (broadcastInDim S1350000x1 ![0] bcast_S1350000_S1350000x1_0
          (select (cmpi .slt src (broadcastInDim S1350000 ![] bcast_S_S1350000 (constantI S_ 32 0#32)))
            (addi src (broadcastInDim S1350000 ![] bcast_S_S1350000 (constantI S_ 32 100000#32))) src)))
      (broadcastInDim S1350000x64 ![0, 1] bcast_S1350000x1_S1350000x64_0_1
        (broadcastInDim S1350000x1 ![0] bcast_S1350000_S1350000x1_0 coef)))

/-- The same aggregation of a [100000, 40] array. -/
def agg40 (h : FVec F S100000x40 .f32) (src tgt : IVec S1350000 32) (coef : FVec F S1350000 .f32) : FVec F S100000x40 .f32 :=
  Host.scatterAdd scatter_S100000x40_S1350000x1_S1350000x40_1_0_0_1
    (broadcastInDim S100000x40 ![] bcast_S_S100000x40 (constant (F := F) S_ .f32 0x00000000#32))
    (broadcastInDim S1350000x1 ![0] bcast_S1350000_S1350000x1_0 tgt)
    (mulf
      (Host.gather gather_S100000x40_S1350000x1_S1350000x40_1_0_n_n_0_1_140 h
        (broadcastInDim S1350000x1 ![0] bcast_S1350000_S1350000x1_0
          (select (cmpi .slt src (broadcastInDim S1350000 ![] bcast_S_S1350000 (constantI S_ 32 0#32)))
            (addi src (broadcastInDim S1350000 ![] bcast_S_S1350000 (constantI S_ 32 100000#32))) src)))
      (broadcastInDim S1350000x40 ![0, 1] bcast_S1350000x1_S1350000x40_0_1
        (broadcastInDim S1350000x1 ![0] bcast_S1350000_S1350000x1_0 coef)))

/-- The reference's first aggregation is `agg64` of its first product, its index arrays and its normalisation. -/
theorem ref_agg64 (x0 : FVec F S100000x64 .f32) (x1 : IVec S2x1250000 32) (x2 : FVec F S64x64 .f32) :
    val_main_v43 (F := F) x0 x1 x2
      = agg64 (val_main_v30 (F := F) x0 x2) (val_main_v3 (F := F) x1) (val_main_v6 (F := F) x1) (val_main_v29 (F := F) x1) := rfl

/-- The reference's second aggregation is `agg40` of its second product, the same index arrays and normalisation. -/
theorem ref_agg40 (x0 : FVec F S100000x64 .f32) (x1 : IVec S2x1250000 32) (x2 : FVec F S64x64 .f32) (x3 : FVec F S64 .f32)
    (x4 : FVec F S64x40 .f32) :
    val_main_v61 (F := F) x0 x1 x2 x3 x4
      = agg40 (val_main_v48 (F := F) x0 x1 x2 x3 x4) (val_main_v3 (F := F) x1) (val_main_v6 (F := F) x1) (val_main_v29 (F := F) x1) := rfl

variable (m : (ℓ : Loc nD τ sig) → Buf (Elt F) ℓ) (ρ : Dev nD → PrngReg) (c : Dev nD)

/-! ## Before the first call -/

/-- The source indices (the edge list's first row, then every node once). -/
theorem W3_v3 : W3 m ρ c (Proc.devRef .tc main_v3) = val_main_v3 (F := F) (m ((c : Thread nD τ).loc main_arg1)) := by
  host_results
  rfl

/-- The target indices (the edge list's second row, then every node once). -/
theorem W3_v6 : W3 m ρ c (Proc.devRef .tc main_v6) = val_main_v6 (F := F) (m ((c : Thread nD τ).loc main_arg1)) := by
  host_results
  rfl

/-- The normalisation, edge by edge. -/
theorem W3_v29 : W3 m ρ c (Proc.devRef .tc main_v29) = val_main_v29 (F := F) (m ((c : Thread nD τ).loc main_arg1)) := by
  host_results
  rfl

/-- x in the narrow format. -/
theorem W3_v30 : W3 m ρ c (Proc.devRef .tc main_v30) = truncf .bf16 ((m ((c : Thread nD τ).loc main_arg0)) : FVec F S100000x64 .f32) bitsLt_bf16_f32 := by
  host_results

/-- W1 in the narrow format. -/
theorem W3_v31 : W3 m ρ c (Proc.devRef .tc main_v31) = truncf .bf16 ((m ((c : Thread nD τ).loc main_arg2)) : FVec F S64x64 .f32) bitsLt_bf16_f32 := by
  host_results

theorem W3_arg3 : W3 m ρ c (Proc.devRef .tc main_arg3) = (m ((c : Thread nD τ).loc main_arg3)) := by
  host_results
theorem W3_arg4 : W3 m ρ c (Proc.devRef .tc main_arg4) = (m ((c : Thread nD τ).loc main_arg4)) := by
  host_results
theorem W3_arg5 : W3 m ρ c (Proc.devRef .tc main_arg5) = (m ((c : Thread nD τ).loc main_arg5)) := by
  host_results

/-! ## The stretch before the second call, from any contents -/

variable (Wp : Valuation τ sig (Elt F))

theorem s1_v46 : after hostOps1 Wp (Proc.devRef .tc main_v46)
    = agg64 (extf .f32 (Wp (Proc.devRef .tc main_v32) : FVec F S100000x64 .bf16) bitsLt_bf16_f32)
        (Wp (Proc.devRef .tc main_v3)) (Wp (Proc.devRef .tc main_v6)) (Wp (Proc.devRef .tc main_v29)) := by
  host_results
  rfl
theorem s1_v47 : after hostOps1 Wp (Proc.devRef .tc main_v47)
    = shapeCast S1x64 (Wp (Proc.devRef .tc main_arg3) : FVec F S64 .f32) shapeCasts_S64_S1x64 := by
  host_results
  rfl
theorem s1_v48 : after hostOps1 Wp (Proc.devRef .tc main_v48)
    = truncf .bf16 (Wp (Proc.devRef .tc main_arg4) : FVec F S64x40 .f32) bitsLt_bf16_f32 := by
  host_results
theorem s1_v3 : after hostOps1 Wp (Proc.devRef .tc main_v3) = Wp (Proc.devRef .tc main_v3) := by host_results
theorem s1_v6 : after hostOps1 Wp (Proc.devRef .tc main_v6) = Wp (Proc.devRef .tc main_v6) := by host_results
theorem s1_v29 : after hostOps1 Wp (Proc.devRef .tc main_v29) = Wp (Proc.devRef .tc main_v29) := by host_results
theorem s1_arg5 : after hostOps1 Wp (Proc.devRef .tc main_arg5) = Wp (Proc.devRef .tc main_arg5) := by host_results

/-! ## The stretch before the third call, from any contents -/

theorem s2_v63 : after hostOps2 Wp (Proc.devRef .tc main_v63)
    = agg40 (extf .f32 (Wp (Proc.devRef .tc main_v49) : FVec F S100000x40 .bf16) bitsLt_bf16_f32)
        (Wp (Proc.devRef .tc main_v3)) (Wp (Proc.devRef .tc main_v6)) (Wp (Proc.devRef .tc main_v29)) := by
  host_results
  rfl
theorem s2_v64 : after hostOps2 Wp (Proc.devRef .tc main_v64)
    = shapeCast S1x40 (Wp (Proc.devRef .tc main_arg5) : FVec F S40 .f32) shapeCasts_S40_S1x40 := by
  host_results
  rfl

end AnyFloats

/-! # On the extended reals: the three calls, threaded -/

variable (m : (ℓ : Loc nD τ sig) → Buf (Elt Ideal) ℓ) (ρ : Dev nD → PrngReg) (c : Dev nD)

/-- A change to a narrower float format is the identity on the extended reals. -/
theorem truncf_id {s : Shape} {φ ψ : FTy} (v : FVec Ideal s φ) (h : ψ.bits < φ.bits) : truncf ψ v h = v := rfl
/-- So is a change to a wider one. -/
theorem extf_id {s : Shape} {φ ψ : FTy} (v : FVec Ideal s φ) (h : φ.bits < ψ.bits) : extf ψ v h = v := rfl

/-- After the first call: x · W1. -/
theorem W4_v32 : W4 m ρ c (Proc.devRef .tc main_v32) = val_main_v30 (F := Ideal) (m ((c : Thread nD τ).loc main_arg0)) (m ((c : Thread nD τ).loc main_arg2)) := by
  refine (W4_arr m ρ c 2).trans ((Cert.KernelIdeal.Region0.final (V3 m ρ) c).trans ?_)
  show Cert.KernelIdeal.Spec.rowsTimes (W3 m ρ c (Proc.devRef .tc main_v30)) (W3 m ρ c (Proc.devRef .tc main_v31)) = _
  rw [W3_v30, W3_v31, truncf_id, truncf_id]
  exact Cert.RefStages.dot1 _ _

theorem W4_v3 : W4 m ρ c (Proc.devRef .tc main_v3) = val_main_v3 (F := Ideal) (m ((c : Thread nD τ).loc main_arg1)) :=
  (W4_of_ne m ρ c main_v3 (by decide)).trans (W3_v3 m ρ c)
theorem W4_v6 : W4 m ρ c (Proc.devRef .tc main_v6) = val_main_v6 (F := Ideal) (m ((c : Thread nD τ).loc main_arg1)) :=
  (W4_of_ne m ρ c main_v6 (by decide)).trans (W3_v6 m ρ c)
theorem W4_v29 : W4 m ρ c (Proc.devRef .tc main_v29) = val_main_v29 (F := Ideal) (m ((c : Thread nD τ).loc main_arg1)) :=
  (W4_of_ne m ρ c main_v29 (by decide)).trans (W3_v29 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-- Before the second call: the first aggregation is the reference's. -/
theorem W5_v46 : W5 m ρ c (Proc.devRef .tc main_v46) = val_main_v43 (F := Ideal) (m ((c : Thread nD τ).loc main_arg0)) (m ((c : Thread nD τ).loc main_arg1)) (m ((c : Thread nD τ).loc main_arg2)) := by
  refine (s1_v46 (W4 m ρ c)).trans ?_
  rw [W4_v32, W4_v3, W4_v6, W4_v29, extf_id]
  exact (ref_agg64 _ _ _).symm

/-- The bias b1 as a row. -/
theorem W5_v47 : W5 m ρ c (Proc.devRef .tc main_v47) = shapeCast S1x64 ((m ((c : Thread nD τ).loc main_arg3)) : FVec Ideal S64 .f32) shapeCasts_S64_S1x64 := by
  refine (s1_v47 (W4 m ρ c)).trans ?_
  rw [W4_arg3]

/-- W2 in the narrow format: W2 itself. -/
theorem W5_v48 : W5 m ρ c (Proc.devRef .tc main_v48) = (m ((c : Thread nD τ).loc main_arg4)) := by
  refine (s1_v48 (W4 m ρ c)).trans ?_
  rw [W4_arg4, truncf_id]

theorem W5_v3 : W5 m ρ c (Proc.devRef .tc main_v3) = val_main_v3 (F := Ideal) (m ((c : Thread nD τ).loc main_arg1)) :=
  (s1_v3 (W4 m ρ c)).trans (W4_v3 m ρ c)
theorem W5_v6 : W5 m ρ c (Proc.devRef .tc main_v6) = val_main_v6 (F := Ideal) (m ((c : Thread nD τ).loc main_arg1)) :=
  (s1_v6 (W4 m ρ c)).trans (W4_v6 m ρ c)
theorem W5_v29 : W5 m ρ c (Proc.devRef .tc main_v29) = val_main_v29 (F := Ideal) (m ((c : Thread nD τ).loc main_arg1)) :=
  (s1_v29 (W4 m ρ c)).trans (W4_v29 m ρ c)
theorem W5_arg5 : W5 m ρ c (Proc.devRef .tc main_arg5) = (m ((c : Thread nD τ).loc main_arg5)) :=
  (s1_arg5 (W4 m ρ c)).trans (W4_arg5 m ρ c)

/-- After the second call: max (agg + b1, 0) · W2. -/
theorem W6_v49 : W6 m ρ c (Proc.devRef .tc main_v49)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((Cert.KernelIdeal.Region1.final (V5 m ρ) c).trans ?_)
  show Cert.KernelIdeal.Spec.reluRowsTimes (W5 m ρ c (Proc.devRef .tc main_v46)) (W5 m ρ c (Proc.devRef .tc main_v47))
      (W5 m ρ c (Proc.devRef .tc main_v48)) = _
  rw [W5_v46, W5_v47, W5_v48]
  exact Cert.RefStages.dot2 _ _ _ _ _ _

theorem W6_v3 : W6 m ρ c (Proc.devRef .tc main_v3) = val_main_v3 (F := Ideal) (m ((c : Thread nD τ).loc main_arg1)) :=
  (W6_of_ne m ρ c main_v3 (by decide)).trans (W5_v3 m ρ c)
theorem W6_v6 : W6 m ρ c (Proc.devRef .tc main_v6) = val_main_v6 (F := Ideal) (m ((c : Thread nD τ).loc main_arg1)) :=
  (W6_of_ne m ρ c main_v6 (by decide)).trans (W5_v6 m ρ c)
theorem W6_v29 : W6 m ρ c (Proc.devRef .tc main_v29) = val_main_v29 (F := Ideal) (m ((c : Thread nD τ).loc main_arg1)) :=
  (W6_of_ne m ρ c main_v29 (by decide)).trans (W5_v29 m ρ c)
theorem W6_arg5 : W6 m ρ c (Proc.devRef .tc main_arg5) = (m ((c : Thread nD τ).loc main_arg5)) :=
  (W6_of_ne m ρ c main_arg5 (by decide)).trans (W5_arg5 m ρ c)

/-- Before the third call: the second aggregation is the reference's. -/
theorem W7_v63 : W7 m ρ c (Proc.devRef .tc main_v63)
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (s2_v63 (W6 m ρ c)).trans ?_
  rw [W6_v49, W6_v3, W6_v6, W6_v29, extf_id]
  exact (ref_agg40 _ _ _ _ _).symm

/-- The bias b2 as a row. -/
theorem W7_v64 : W7 m ρ c (Proc.devRef .tc main_v64) = shapeCast S1x40 ((m ((c : Thread nD τ).loc main_arg5)) : FVec Ideal S40 .f32) shapeCasts_S40_S1x40 := by
  refine (s2_v64 (W6 m ρ c)).trans ?_
  rw [W6_arg5]

/-- THE RESULT ARRAY after the run is the reference's last stage of the argument arrays. -/
theorem W8_v65 : W8 m ρ c (Proc.devRef .tc main_v65)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((Cert.KernelIdeal.Region2.final (V7 m ρ) c).trans ?_)
  show Cert.KernelIdeal.Spec.logSoftmaxRows (W7 m ρ c (Proc.devRef .tc main_v63)) (W7 m ρ c (Proc.devRef .tc main_v64)) = _
  rw [W7_v63, W7_v64]
  exact Cert.RefStages.lsm _ _ _ _ _ _ _

/-- The run, read: every weakly fair execution of the idealized kernel terminates, nothing faulting, with the result array at
    the reference's last stage of the argument arrays and the arguments as launched. -/
theorem run : θ_run defs (onTc (τ := τ) (main (F := Ideal))) ⟨m, fun _ => 0, ρ⟩ (fun r => ∀ c : Dev nD,
      r.2.mem ((c.tc : Thread nD τ).loc main_v65)
        = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W8_v65 m ρ c), (h c).2⟩) (run_result m ρ)

end Cert.KernelIdeal.Hand

end
-- ==== Proof.RefValue.lean ====
/-
  The reference's run, read: its result array ends at the last stage of its operations, `val_main_v65` of the argument arrays.

  The reference has no kernel: @main is 98 host operations in a line, so every weakly fair execution runs them in order and each
  buffer ends at the fold of the operations from the launch contents. The fold is read in five stretches, each from whatever
  the buffers hold when it starts: the index arrays with the self loops and the normalisation (operations 1 to 40); x · W1 and
  the first aggregation (41 to 57); the bias, the positive part and the product with W2 (58 to 64); the second aggregation
  (65 to 80); the bias and the row-wise log-softmax (81 to 98). Each stretch leaves the stage the reference's reading names, and
  the buffers a later stretch still reads are left as they were. All of it holds for any floats: it is the operations composed.
-/
import proofs.«111087_j72662256714549_1_alg».proof.Proof.RefRead
import proofs.«111087_j72662256714549_1_alg».proof.Proof.HostResults

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP Cert.ReferenceIdeal.ReadP

variable {F : FTy → Type} [FloatOps F]

/-- Two stretches run one after the other are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The stretches of @main's operations (the last, the log-softmax, in two). -/
abbrev opsA : List (HloOp τ sig (Elt F)) := ops.take 40
abbrev opsB : List (HloOp τ sig (Elt F)) := (ops.drop 40).take 17
abbrev opsC : List (HloOp τ sig (Elt F)) := (ops.drop 57).take 7
abbrev opsD : List (HloOp τ sig (Elt F)) := (ops.drop 64).take 16
abbrev opsE1 : List (HloOp τ sig (Elt F)) := (ops.drop 80).take 3
abbrev opsE2 : List (HloOp τ sig (Elt F)) := (ops.drop 83).take 2
abbrev opsE3 : List (HloOp τ sig (Elt F)) := (ops.drop 85).take 3
abbrev opsE4 : List (HloOp τ sig (Elt F)) := (ops.drop 88).take 3
abbrev opsG : List (HloOp τ sig (Elt F)) := ops.drop 91

theorem ops_split : (ops : List (HloOp τ sig (Elt F))) = opsA ++ (opsB ++ (opsC ++ (opsD ++ (opsE1 ++ (opsE2 ++ (opsE3 ++ (opsE4 ++ opsG))))))) := rfl

/-- `host_results` on a stretch cut out of the operation list: the cut is computed first. -/
macro "stretch_results" : tactic =>
  `(tactic| (simp only [opsA, opsB, opsC, opsD, opsE1, opsE2, opsE3, opsE4, opsG, List.take_succ_cons, List.take_zero, List.drop_succ_cons, List.drop_zero]; host_results))

variable (Wp : Valuation τ sig (Elt F))
variable (x0 : FVec F S100000x64 .f32) (x1 : IVec S2x1250000 32) (x2 : FVec F S64x64 .f32) (x3 : FVec F S64 .f32)
  (x4 : FVec F S64x40 .f32) (x5 : FVec F S40 .f32)

/-! ## Operations 1 to 40: the index arrays and the normalisation -/

theorem A_v3 (h1 : Wp (Proc.devRef .tc main_arg1) = x1) : after opsA Wp (Proc.devRef .tc main_v3) = val_main_v3 (F := F) x1 := by
  stretch_results
  rw [h1]
  rfl
theorem A_v6 (h1 : Wp (Proc.devRef .tc main_arg1) = x1) : after opsA Wp (Proc.devRef .tc main_v6) = val_main_v6 (F := F) x1 := by
  stretch_results
  rw [h1]
  rfl
theorem A_v29 (h1 : Wp (Proc.devRef .tc main_arg1) = x1) : after opsA Wp (Proc.devRef .tc main_v29) = val_main_v29 (F := F) x1 := by
  stretch_results
  rw [h1]
  rfl
theorem A_arg0 : after opsA Wp (Proc.devRef .tc main_arg0) = Wp (Proc.devRef .tc main_arg0) := by stretch_results
theorem A_arg2 : after opsA Wp (Proc.devRef .tc main_arg2) = Wp (Proc.devRef .tc main_arg2) := by stretch_results
theorem A_arg3 : after opsA Wp (Proc.devRef .tc main_arg3) = Wp (Proc.devRef .tc main_arg3) := by stretch_results
theorem A_arg4 : after opsA Wp (Proc.devRef .tc main_arg4) = Wp (Proc.devRef .tc main_arg4) := by stretch_results
theorem A_arg5 : after opsA Wp (Proc.devRef .tc main_arg5) = Wp (Proc.devRef .tc main_arg5) := by stretch_results

/-! ## Operations 41 to 57: x · W1 and the first aggregation -/

theorem B_v43 (h0 : Wp (Proc.devRef .tc main_arg0) = x0) (h2 : Wp (Proc.devRef .tc main_arg2) = x2)
    (h3 : Wp (Proc.devRef .tc main_v3) = val_main_v3 (F := F) x1) (h6 : Wp (Proc.devRef .tc main_v6) = val_main_v6 (F := F) x1)
    (h29 : Wp (Proc.devRef .tc main_v29) = val_main_v29 (F := F) x1) :
    after opsB Wp (Proc.devRef .tc main_v43) = val_main_v43 (F := F) x0 x1 x2 := by
  stretch_results
  rw [h0, h2, h3, h6, h29]
  rfl
theorem B_v3 : after opsB Wp (Proc.devRef .tc main_v3) = Wp (Proc.devRef .tc main_v3) := by stretch_results
theorem B_v6 : after opsB Wp (Proc.devRef .tc main_v6) = Wp (Proc.devRef .tc main_v6) := by stretch_results
theorem B_v29 : after opsB Wp (Proc.devRef .tc main_v29) = Wp (Proc.devRef .tc main_v29) := by stretch_results
theorem B_arg3 : after opsB Wp (Proc.devRef .tc main_arg3) = Wp (Proc.devRef .tc main_arg3) := by stretch_results
theorem B_arg4 : after opsB Wp (Proc.devRef .tc main_arg4) = Wp (Proc.devRef .tc main_arg4) := by stretch_results
theorem B_arg5 : after opsB Wp (Proc.devRef .tc main_arg5) = Wp (Proc.devRef .tc main_arg5) := by stretch_results

/-! ## Operations 58 to 64: the bias, the positive part, the product with W2 -/

theorem C_v48 (h43 : Wp (Proc.devRef .tc main_v43) = val_main_v43 (F := F) x0 x1 x2) (h3 : Wp (Proc.devRef .tc main_arg3) = x3)
    (h4 : Wp (Proc.devRef .tc main_arg4) = x4) :
    after opsC Wp (Proc.devRef .tc main_v48) = val_main_v48 (F := F) x0 x1 x2 x3 x4 := by
  stretch_results
  rw [h43, h3, h4]
  rfl
theorem C_v3 : after opsC Wp (Proc.devRef .tc main_v3) = Wp (Proc.devRef .tc main_v3) := by stretch_results
theorem C_v6 : after opsC Wp (Proc.devRef .tc main_v6) = Wp (Proc.devRef .tc main_v6) := by stretch_results
theorem C_v29 : after opsC Wp (Proc.devRef .tc main_v29) = Wp (Proc.devRef .tc main_v29) := by stretch_results
theorem C_arg5 : after opsC Wp (Proc.devRef .tc main_arg5) = Wp (Proc.devRef .tc main_arg5) := by stretch_results

/-! ## Operations 65 to 80: the second aggregation -/

theorem D_v61 (h48 : Wp (Proc.devRef .tc main_v48) = val_main_v48 (F := F) x0 x1 x2 x3 x4)
    (h3 : Wp (Proc.devRef .tc main_v3) = val_main_v3 (F := F) x1) (h6 : Wp (Proc.devRef .tc main_v6) = val_main_v6 (F := F) x1)
    (h29 : Wp (Proc.devRef .tc main_v29) = val_main_v29 (F := F) x1) :
    after opsD Wp (Proc.devRef .tc main_v61) = val_main_v61 (F := F) x0 x1 x2 x3 x4 := by
  stretch_results
  rw [h48, h3, h6, h29]
  rfl
theorem D_arg5 : after opsD Wp (Proc.devRef .tc main_arg5) = Wp (Proc.devRef .tc main_arg5) := by stretch_results

/-! ## Operations 81 to 91: the bias, each row's maximum, the rows centred — one step at a time -/

/-- The bias row added to every row of the second aggregation. -/
theorem E1_v64 (h61 : Wp (Proc.devRef .tc main_v61) = val_main_v61 (F := F) x0 x1 x2 x3 x4) (h5 : Wp (Proc.devRef .tc main_arg5) = x5) :
    after opsE1 Wp (Proc.devRef .tc main_v64) = val_main_v64 (F := F) x0 x1 x2 x3 x4 x5 := by
  stretch_results
  rw [h61, h5]
  rfl

/-- Contents moved to a buffer's own type and back are the contents. -/
theorem ofBuf_toBuf {T : BufTy} (x : TRef sig T) (v : T.Contents (Elt F)) : x.ofBuf (x.toBuf v) = v := by
  obtain ⟨r, h, hd, hu⟩ := x
  subst h
  rfl

/-- Read at its value's type, the biased aggregation's buffer holds what it holds. -/
theorem ofBuf_v64 (y : (⟨S100000x40, .f32⟩ : BufTy).Contents (Elt F)) :
    (TRef.of (sig := sig) (T := ⟨S100000x40, .f32⟩) main_v64).ofBuf (Val := Elt F) y = y := rfl

/-- Each row's maximum, from −∞ (both sides read at the value's type: the maximum is never opened). -/
theorem E2_c0 (h64 : (TRef.of (sig := sig) (T := ⟨S100000x40, .f32⟩) main_v64).ofBuf (Val := Elt F) (Wp (Proc.devRef .tc main_v64))
      = val_main_v64 (F := F) x0 x1 x2 x3 x4 x5) :
    (TRef.of (sig := sig) (T := ⟨S100000, .f32⟩) main_call2_v0).ofBuf (Val := Elt F) (after opsE2 Wp (Proc.devRef .tc main_call2_v0))
      = val_main_call2_v0 (F := F) x0 x1 x2 x3 x4 x5 := by
  stretch_results
  simp only [ofBuf_toBuf]
  rw [h64]
  rfl
theorem E2_v64 : after opsE2 Wp (Proc.devRef .tc main_v64) = Wp (Proc.devRef .tc main_v64) := by stretch_results

/-- Joined once more with −∞. -/
theorem E3_c2 (hc0 : (TRef.of (sig := sig) (T := ⟨S100000, .f32⟩) main_call2_v0).ofBuf (Val := Elt F) (Wp (Proc.devRef .tc main_call2_v0))
      = val_main_call2_v0 (F := F) x0 x1 x2 x3 x4 x5) :
    after opsE3 Wp (Proc.devRef .tc main_call2_v2) = val_main_call2_v2 (F := F) x0 x1 x2 x3 x4 x5 := by
  stretch_results
  rw [hc0]
  unfold val_main_call2_v2 val_main_call2_v1 val_main_call2_cst_0
  generalize val_main_call2_v0 (F := F) x0 x1 x2 x3 x4 x5 = y
  rfl
theorem E3_v64 : after opsE3 Wp (Proc.devRef .tc main_v64) = Wp (Proc.devRef .tc main_v64) := by stretch_results

/-- Spread back over the lanes and subtracted. -/
theorem E4_c5 (hc2 : Wp (Proc.devRef .tc main_call2_v2) = val_main_call2_v2 (F := F) x0 x1 x2 x3 x4 x5)
    (h64 : Wp (Proc.devRef .tc main_v64) = val_main_v64 (F := F) x0 x1 x2 x3 x4 x5) :
    after opsE4 Wp (Proc.devRef .tc main_call2_v5) = val_main_call2_v5 (F := F) x0 x1 x2 x3 x4 x5 := by
  stretch_results
  rw [hc2, h64]
  rfl

/-! ## Operations 92 to 98: the exponentials, their row sums, the logarithm, the last subtraction -/

theorem G_v65 (hc5 : Wp (Proc.devRef .tc main_call2_v5) = val_main_call2_v5 (F := F) x0 x1 x2 x3 x4 x5) :
    after opsG Wp (Proc.devRef .tc main_v65) = val_main_v65 (F := F) x0 x1 x2 x3 x4 x5 := by
  stretch_results
  rw [hc5]
  rfl

/-! ## The stretches in a row -/

/-- From any contents `V` the whole line leaves the last stage of `V`'s six argument arrays in the result buffer. -/
theorem result_eq (V : Valuation τ sig (Elt F)) :
    after ops V (Proc.devRef .tc main_v65)
      = val_main_v65 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, after_append, after_append, after_append, after_append, after_append, after_append, after_append]
  have a3 := A_v3 V (V (Proc.devRef .tc main_arg1)) rfl
  have a6 := A_v6 V (V (Proc.devRef .tc main_arg1)) rfl
  have a29 := A_v29 V (V (Proc.devRef .tc main_arg1)) rfl
  have b43 := B_v43 (after opsA V) (V (Proc.devRef .tc main_arg0)) (V (Proc.devRef .tc main_arg1)) (V (Proc.devRef .tc main_arg2))
    (A_arg0 V) (A_arg2 V) a3 a6 a29
  have b3 := (B_v3 (after opsA V)).trans a3
  have b6 := (B_v6 (after opsA V)).trans a6
  have b29 := (B_v29 (after opsA V)).trans a29
  have b_arg3 := (B_arg3 (after opsA V)).trans (A_arg3 V)
  have b_arg4 := (B_arg4 (after opsA V)).trans (A_arg4 V)
  have b_arg5 := (B_arg5 (after opsA V)).trans (A_arg5 V)
  have c48 := C_v48 (after opsB (after opsA V)) (V (Proc.devRef .tc main_arg0)) (V (Proc.devRef .tc main_arg1)) (V (Proc.devRef .tc main_arg2))
    (V (Proc.devRef .tc main_arg3)) (V (Proc.devRef .tc main_arg4)) b43 b_arg3 b_arg4
  have c3 := (C_v3 (after opsB (after opsA V))).trans b3
  have c6 := (C_v6 (after opsB (after opsA V))).trans b6
  have c29 := (C_v29 (after opsB (after opsA V))).trans b29
  have c_arg5 := (C_arg5 (after opsB (after opsA V))).trans b_arg5
  have d61 := D_v61 (after opsC (after opsB (after opsA V))) (V (Proc.devRef .tc main_arg0)) (V (Proc.devRef .tc main_arg1))
    (V (Proc.devRef .tc main_arg2)) (V (Proc.devRef .tc main_arg3)) (V (Proc.devRef .tc main_arg4)) c48 c3 c6 c29
  have d_arg5 := (D_arg5 (after opsC (after opsB (after opsA V)))).trans c_arg5
  have e64 := E1_v64 (after opsD (after opsC (after opsB (after opsA V)))) (V (Proc.devRef .tc main_arg0)) (V (Proc.devRef .tc main_arg1))
    (V (Proc.devRef .tc main_arg2)) (V (Proc.devRef .tc main_arg3)) (V (Proc.devRef .tc main_arg4)) (V (Proc.devRef .tc main_arg5)) d61 d_arg5
  have ec0 := E2_c0 (after opsE1 (after opsD (after opsC (after opsB (after opsA V))))) _ _ _ _ _ _
    (by rw [e64]; exact ofBuf_v64 _)
  have e64' := (E2_v64 (after opsE1 (after opsD (after opsC (after opsB (after opsA V)))))).trans e64
  have ec2 := E3_c2 (after opsE2 (after opsE1 (after opsD (after opsC (after opsB (after opsA V)))))) _ _ _ _ _ _ ec0
  have e64'' := (E3_v64 (after opsE2 (after opsE1 (after opsD (after opsC (after opsB (after opsA V))))))).trans e64'
  have ec5 := E4_c5 (after opsE3 (after opsE2 (after opsE1 (after opsD (after opsC (after opsB (after opsA V))))))) _ _ _ _ _ _
    ec2 e64''
  exact G_v65 (after opsE4 (after opsE3 (after opsE2 (after opsE1 (after opsD (after opsC (after opsB (after opsA V)))))))) _ _ _ _ _ _ ec5

set_option maxHeartbeats 4000000 in
/-- Every weakly fair execution of the reference terminates, nothing faulting, with the result array at the stages' composition
    of the argument arrays and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.lean ====
/-
  A two-layer graph convolution (x · W1, aggregate over the edges with the symmetric normalisation, add b1, positive part, · W2,
  aggregate again, add b2, row-wise log-softmax) whose three dense stages run as pallas_calls over ten blocks of 10000 rows,
  against the same network written with host operations over all 100000 rows.

  On the extended reals the change to the narrow float format is the identity, a product accumulated block of rows by block of
  rows is the product over all rows, and a row's log-softmax reads that row only; so each pallas_call leaves in its result array
  exactly what the reference's operations compute from the same operands (Proof/Region0 … Region2 against Proof/RefDots,
  Proof/RefLsm). Everything between the calls — the index arrays with the self loops, the degree normalisation, the gathers and
  the scatter-adds — is the same host operations on both sides, applied to equal operands (Proof/KernelValue). No algebraic
  law is needed beyond reading each sum index by index, so the precondition (every float input finite) is never opened.

  The frames: the two kernels' are the generated certificates of their three regions; the reference's is its run with the
  result dropped. The idealization rewrote no operation, so `preserves` has nothing to state.
-/
import proofs.«111087_j72662256714549_1_alg».proof.Defs
import proofs.«111087_j72662256714549_1_alg».proof.Proof.Gen.Kernel
import proofs.«111087_j72662256714549_1_alg».proof.Proof.Gen.Kernel.Skeleton
import proofs.«111087_j72662256714549_1_alg».proof.Proof.Gen.Kernel.Launch
import proofs.«111087_j72662256714549_1_alg».proof.Proof.Gen.Kernel.Points
import proofs.«111087_j72662256714549_1_alg».proof.Proof.Gen.Kernel.Frame
import proofs.«111087_j72662256714549_1_alg».proof.Proof.Gen.KernelIdeal
import proofs.«111087_j72662256714549_1_alg».proof.Proof.Gen.KernelIdeal.Skeleton
import proofs.«111087_j72662256714549_1_alg».proof.Proof.Gen.KernelIdeal.Launch
import proofs.«111087_j72662256714549_1_alg».proof.Proof.Gen.KernelIdeal.Points
import proofs.«111087_j72662256714549_1_alg».proof.Proof.Gen.KernelIdeal.Frame
import proofs.«111087_j72662256714549_1_alg».proof.Proof.Gen.ReferenceIdeal
import proofs.«111087_j72662256714549_1_alg».proof.Proof.Gen.Pre_finite_inputs
import proofs.«111087_j72662256714549_1_alg».proof.Proof.KernelValue
import proofs.«111087_j72662256714549_1_alg».proof.Proof.RefValue
import Idealize.ShloMosaic.Adequacy
import Idealize.ShloMosaic.Init

noncomputable section

namespace Cert.Proof

open Idealize.ShloMosaic Idealize.SL.Sem

/-- The kernel as printed runs and keeps its arguments: the generated certificate of its three regions. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories that agree on the six arguments both programs end with the reference's last stage of those arguments in
    their result arrays: the kernel by the three regions' values threaded through its host operations, the reference by its
    run. -/
theorem algebraic : Cert.algebraic_KernelIdeal_ReferenceIdeal := by
  intro m ρ m' ρ' _ hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
